-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000x32 : S_.BroadcastsInDim S1600000x32 (![] : Fin 0 → Fin S1600000x32.rank)
  reducesTo_S1600000x32_S_d0_1 : S1600000x32.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S32x64 : S_.BroadcastsInDim S32x64 (![] : Fin 0 → Fin S32x64.rank)
  reducesTo_S32x64_S_d0_1 : S32x64.ReducesTo [0, 1] S_

variable [Facts]

def fn_part3 {F : FTy → Type} [FloatOps F] (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  main_v53

def fn_part2 {F : FTy → Type} [FloatOps F] (main_arg8 : FVec F S128x64 .f32) (main_arg9 : FVec F S64 .f32) (main_arg10 : FVec F S64 .f32) (main_arg11 : FVec F S64 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_v48 main_v49 main_v50

def fn_part1 {F : FTy → Type} [FloatOps F] (main_arg5 : FVec F S128x64 .f32) (main_arg6 : FVec F S32x64 .f32) (main_arg7 : FVec F S64 .f32) (main_arg8 : FVec F S128x64 .f32) (main_arg9 : FVec F S64 .f32) (main_arg10 : FVec F S64 .f32) (main_arg11 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x128 .f32) (main_arg1 : IVec S2x1600000 32) (main_arg2 : FVec F S1600000x32 .f32) (main_arg3 : FVec F S128x64 .f32) (main_arg4 : FVec F S64 .f32) (main_arg5 : FVec F S128x64 .f32) (main_arg6 : FVec F S32x64 .f32) (main_arg7 : FVec F S64 .f32) (main_arg8 : FVec F S128x64 .f32) (main_arg9 : FVec F S64 .f32) (main_arg10 : FVec F S64 .f32) (main_arg11 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000x32 .f32 := Host.absf main_arg2
  let main_cst_0 : FVec F S_ .f32 := constant S_ .f32 0x7F800000#32
  let main_v5 : FVec F S1600000x32 .f32 := broadcastInDim S1600000x32 ![] bcast_S_S1600000x32 main_cst_0
  let main_v6 : IVec S1600000x32 1 := cmpf .olt main_v4 main_v5
  let main_c_1 : IVec S_ 1 := constantI S_ 1 1#1
  let main_v7 : IVec S_ 1 := (fun x v => Host.reduce IntOp.andi x v reducesTo_S1600000x32_S_d0_1 h_S_) main_v6 main_c_1
  let main_v8 : IVec S_ 1 := andi main_v3 main_v7
  let main_v9 : FVec F S128x64 .f32 := Host.absf main_arg3
  let main_cst_2 : FVec F S_ .f32 := constant S_ .f32 0x7F800000#32
  let main_v10 : FVec F S128x64 .f32 := broadcastInDim S128x64 ![] bcast_S_S128x64 main_cst_2
  let main_v11 : IVec S128x64 1 := cmpf .olt main_v9 main_v10
  let main_c_3 : IVec S_ 1 := constantI S_ 1 1#1
  let main_v12 : IVec S_ 1 := (fun x v => Host.reduce IntOp.andi x v reducesTo_S128x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_arg7 main_arg8 main_arg9 main_arg10 main_arg11 main_v13 main_v16
-- ==== Kernel.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x64 : Shape := ⟨2, ![1, 64]⟩
abbrev S100000x64 : Shape := ⟨2, ![100000, 64]⟩
abbrev S2000x128 : Shape := ⟨2, ![2000, 128]⟩
abbrev S2000x64 : Shape := ⟨2, ![2000, 64]⟩
abbrev S1600000x64 : Shape := ⟨2, ![1600000, 64]⟩
abbrev S8000x32 : Shape := ⟨2, ![8000, 32]⟩
abbrev S8000x64 : Shape := ⟨2, ![8000, 64]⟩
abbrev S8000x128 : Shape := ⟨2, ![8000, 128]⟩

abbrev nBuf : Space → Nat
  | .hbm => 83
  | .vmem => 27
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S1x64, .f32⟩
  | .hbm, ⟨42, _⟩ => ⟨S100000x64, .f32⟩
  | .hbm, ⟨43, _⟩ => ⟨S_, .i32⟩
  | .hbm, ⟨44, _⟩ => ⟨S1600000, .i32⟩
  | .hbm, ⟨45, _⟩ => ⟨S1600000, .i1⟩
  | .hbm, ⟨46, _⟩ => ⟨S_, .i32⟩
  | .hbm, ⟨47, _⟩ => ⟨S1600000, .i32⟩
  | .hbm, ⟨48, _⟩ => ⟨S1600000, .i32⟩
  | .hbm, ⟨49, _⟩ => ⟨S1600000, .i32⟩
  | .hbm, ⟨50, _⟩ => ⟨S1600000x1, .i32⟩
  | .hbm, ⟨51, _⟩ => ⟨S1600000x64, .f32⟩
  | .hbm, ⟨52, _⟩ => ⟨S1x64, .f32⟩
  | .hbm, ⟨53, _⟩ => ⟨S1x64, .f32⟩
  | .hbm, ⟨54, _⟩ => ⟨S1600000x64, .f32⟩
  | .hbm, ⟨55, _⟩ => ⟨S_, .f32⟩
  | .hbm, ⟨56, _⟩ => ⟨S100000x64, .f32⟩
  | .hbm, ⟨57, _⟩ => ⟨S1600000x1, .i32⟩
  | .hbm, ⟨58, _⟩ => ⟨S100000x64, .f32⟩
  | .hbm, ⟨59, _⟩ => ⟨S100000x64, .f32⟩
  | .hbm, ⟨60, _⟩ => ⟨S_, .f32⟩
  | .hbm, ⟨61, _⟩ => ⟨S64, .f32⟩
  | .hbm, ⟨62, _⟩ => ⟨S_, .f32⟩
  | .hbm, ⟨63, _⟩ => ⟨S64, .f32⟩
  | .hbm, ⟨64, _⟩ => ⟨S64, .f32⟩
  | .hbm, ⟨65, _⟩ => ⟨S1x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S64, .f32⟩
  | .hbm, ⟨71, _⟩ => ⟨S_, .f32⟩
  | .hbm, ⟨72, _⟩ => ⟨S64, .f32⟩
  | .hbm, ⟨73, _⟩ => ⟨S64, .f32⟩
  | .hbm, ⟨74, _⟩ => ⟨S_, .f32⟩
  | .hbm, ⟨75, _⟩ => ⟨S64, .f32⟩
  | .hbm, ⟨76, _⟩ => ⟨S64, .f32⟩
  | .hbm, ⟨77, _⟩ => ⟨S64, .f32⟩
  | .hbm, ⟨78, _⟩ => ⟨S1x64, .f32⟩
  | .hbm, ⟨79, _⟩ => ⟨S1x64, .f32⟩
  | .hbm, ⟨80, _⟩ => ⟨S1x64, .f32⟩
  | .hbm, ⟨81, _⟩ => ⟨S1x64, .f32⟩
  | .hbm, ⟨82, _⟩ => ⟨S100000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x64, .f32⟩
  | .local _ .vmem, ⟨5, _⟩ => ⟨S128x64, .f32⟩
  | .local _ .vmem, ⟨6, _⟩ => ⟨S1x64, .f32⟩
  | .local _ .vmem, ⟨7, _⟩ => ⟨S2000x64, .f32⟩
  | .local _ .vmem, ⟨8, _⟩ => ⟨S2000x64, .f32⟩
  | .local _ .vmem, ⟨9, _⟩ => ⟨S8000x32, .f32⟩
  | .local _ .vmem, ⟨10, _⟩ => ⟨S8000x32, .f32⟩
  | .local _ .vmem, ⟨11, _⟩ => ⟨S8000x64, .f32⟩
  | .local _ .vmem, ⟨12, _⟩ => ⟨S8000x64, .f32⟩
  | .local _ .vmem, ⟨13, _⟩ => ⟨S32x64, .f32⟩
  | .local _ .vmem, ⟨14, _⟩ => ⟨S1x64, .f32⟩
  | .local _ .vmem, ⟨15, _⟩ => ⟨S128x64, .f32⟩
  | .local _ .vmem, ⟨16, _⟩ => ⟨S1x64, .f32⟩
  | .local _ .vmem, ⟨17, _⟩ => ⟨S8000x64, .f32⟩
  | .local _ .vmem, ⟨18, _⟩ => ⟨S8000x64, .f32⟩
  | .local _ .vmem, ⟨19, _⟩ => ⟨S2000x64, .f32⟩
  | .local _ .vmem, ⟨20, _⟩ => ⟨S2000x64, .f32⟩
  | .local _ .vmem, ⟨21, _⟩ => ⟨S1x64, .f32⟩
  | .local _ .vmem, ⟨22, _⟩ => ⟨S1x64, .f32⟩
  | .local _ .vmem, ⟨23, _⟩ => ⟨S1x64, .f32⟩
  | .local _ .vmem, ⟨24, _⟩ => ⟨S1x64, .f32⟩
  | .local _ .vmem, ⟨25, _⟩ => ⟨S2000x64, .f32⟩
  | .local _ .vmem, ⟨26, _⟩ => ⟨S2000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_c_4 : Ref sig .tc := ⟨.hbm, 43, rfl⟩
abbrev main_v25 : Ref sig .tc := ⟨.hbm, 44, rfl⟩
abbrev main_v26 : Ref sig .tc := ⟨.hbm, 45, rfl⟩
abbrev main_c_5 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_6 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_7 : Ref sig .tc := ⟨.hbm, 60, rfl⟩
abbrev main_v39 : Ref sig .tc := ⟨.hbm, 61, rfl⟩
abbrev main_cst_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_cst_9 : Ref sig .tc := ⟨.hbm, 69, rfl⟩
abbrev main_v46 : Ref sig .tc := ⟨.hbm, 70, rfl⟩
abbrev main_cst_10 : Ref sig .tc := ⟨.hbm, 71, rfl⟩
abbrev main_v47 : Ref sig .tc := ⟨.hbm, 72, rfl⟩
abbrev main_v48 : Ref sig .tc := ⟨.hbm, 73, rfl⟩
abbrev main_cst_11 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg6_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg5_0 : Ref sig .tc := ⟨.vmem, 25, rfl⟩
abbrev cc2_stg5_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem6_1 : DmaSem sig := 18
abbrev cc2_sem0_0 : DmaSem sig := 19
abbrev cc2_sem0_1 : DmaSem sig := 20
abbrev cc2_sem1_0 : DmaSem sig := 21
abbrev cc2_sem2_0 : DmaSem sig := 22
abbrev cc2_sem3_0 : DmaSem sig := 23
abbrev cc2_sem4_0 : DmaSem sig := 24
abbrev cc2_sem5_0 : DmaSem sig := 25
abbrev cc2_sem5_1 : DmaSem sig := 26

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![200], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S8000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S8000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S64_S1x64 : S64.ShapeCasts S1x64
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  inb_S8000x32_S8000x32_0_0 : ∀ a, (![0, 0] : Fin 2 → Nat) a + S8000x32.size a ≤ S8000x32.size a
  h_S8000x32 : 0 < S8000x32.numel
  inb_S32x64_S32x64_0_0 : ∀ a, (![0, 0] : Fin 2 → Nat) a + S32x64.size a ≤ S32x64.size a
  h_S32x64 : 0 < S32x64.numel
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  shapeCasts_S8000x64_S8000x64 : S8000x64.ShapeCasts S8000x64
  concatenates_S8000x64_S8000x64_S8000x128_d1 : Shape.Concatenates [S8000x64, S8000x64] S8000x128 1
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  shapeCasts_S2000x64_S2000x64 : S2000x64.ShapeCasts S2000x64
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  dot_S8000x32_S32x64_S8000x64_1_0_0_1_n_n_wf : DotDims.WF S8000x32 S32x64 S8000x64 [1] [0] [0] [1] [] []
  dot_S8000x128_S128x64_S8000x64_1_0_0_1_n_n_wf : DotDims.WF S8000x128 S128x64 S8000x64 [1] [0] [0] [1] [] []
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S128x64.size a
  hwx0_2 : ∀ i : grid0.Coords, EltTy.bits .f32 = 32 ∨ (Rect.block (s := S128x64) S128x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x64.size a ≤ S100000x64.size a
  hwx0_5 : ∀ i : grid0.Coords, EltTy.bits .f32 = 32 ∨ (Rect.block (s := S100000x64) S2000x64.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8000x32.size a ≤ S1600000x32.size a
  hwx1_0 : ∀ i : grid1.Coords, EltTy.bits .f32 = 32 ∨ (Rect.block (s := S1600000x32) S8000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8000x64.size a ≤ S1600000x64.size a
  hwx1_1 : ∀ i : grid1.Coords, EltTy.bits .f32 = 32 ∨ (Rect.block (s := S1600000x64) S8000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8000x64.size a ≤ S1600000x64.size a
  hwx1_6 : ∀ i : grid1.Coords, EltTy.bits .f32 = 32 ∨ (Rect.block (s := S1600000x64) S8000x64.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S100000x64.size a
  hwx2_5 : ∀ i : grid2.Coords, EltTy.bits .f32 = 32 ∨ (Rect.block (s := S100000x64) S2000x64.size (cc2_transform_5 i) (hinb2_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S8000x32_S32x64_S8000x64_1_0_0_1_n_n : DotDims S8000x32 S32x64 S8000x64 where
  lhsContracting := [1]
  rhsContracting := [0]
  lhsNonContracting := [0]
  rhsNonContracting := [1]
  lhsBatch := []
  rhsBatch := []
  wf := dot_S8000x32_S32x64_S8000x64_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_v22) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_arg2) S8000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S8000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v32) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v34) S8000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v38) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v52) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000x32 : Shape := ⟨2, ![1600000, 32]⟩
abbrev S128x64 : Shape := ⟨2, ![128, 64]⟩
abbrev S64 : Shape := ⟨1, ![64]⟩
abbrev S32x64 : Shape := ⟨2, ![32, 64]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S100000x64 : Shape := ⟨2, ![100000, 64]⟩
abbrev S1x64 : Shape := ⟨2, ![1, 64]⟩
abbrev S1600000x64 : Shape := ⟨2, ![1600000, 64]⟩

abbrev nBuf : Space → Nat
  | .hbm => 115
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000x32, .f32⟩
  | .hbm, ⟨3, _⟩ => ⟨S128x64, .f32⟩
  | .hbm, ⟨4, _⟩ => ⟨S64, .f32⟩
  | .hbm, ⟨5, _⟩ => ⟨S128x64, .f32⟩
  | .hbm, ⟨6, _⟩ => ⟨S32x64, .f32⟩
  | .hbm, ⟨7, _⟩ => ⟨S64, .f32⟩
  | .hbm, ⟨8, _⟩ => ⟨S128x64, .f32⟩
  | .hbm, ⟨9, _⟩ => ⟨S64, .f32⟩
  | .hbm, ⟨10, _⟩ => ⟨S64, .f32⟩
  | .hbm, ⟨11, _⟩ => ⟨S64, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S1600000, .f32⟩
  | .hbm, ⟨31, _⟩ => ⟨S_, .f32⟩
  | .hbm, ⟨32, _⟩ => ⟨S100000, .f32⟩
  | .hbm, ⟨33, _⟩ => ⟨S1600000x1, .i32⟩
  | .hbm, ⟨34, _⟩ => ⟨S100000, .f32⟩
  | .hbm, ⟨35, _⟩ => ⟨S_, .f32⟩
  | .hbm, ⟨36, _⟩ => ⟨S100000, .f32⟩
  | .hbm, ⟨37, _⟩ => ⟨S100000, .f32⟩
  | .hbm, ⟨38, _⟩ => ⟨S100000x1, .f32⟩
  | .hbm, ⟨39, _⟩ => ⟨S100000x128, .f32⟩
  | .hbm, ⟨40, _⟩ => ⟨S100000x128, .f32⟩
  | .hbm, ⟨41, _⟩ => ⟨S100000x64, .f32⟩
  | .hbm, ⟨42, _⟩ => ⟨S1x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1600000x64, .f32⟩
  | .hbm, ⟨48, _⟩ => ⟨S1x64, .f32⟩
  | .hbm, ⟨49, _⟩ => ⟨S1600000x64, .f32⟩
  | .hbm, ⟨50, _⟩ => ⟨S1600000x64, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x64, .f32⟩
  | .hbm, ⟨60, _⟩ => ⟨S1600000x128, .f32⟩
  | .hbm, ⟨61, _⟩ => ⟨S1600000x64, .f32⟩
  | .hbm, ⟨62, _⟩ => ⟨S1x64, .f32⟩
  | .hbm, ⟨63, _⟩ => ⟨S1600000x64, .f32⟩
  | .hbm, ⟨64, _⟩ => ⟨S1600000x64, .f32⟩
  | .hbm, ⟨65, _⟩ => ⟨S1600000x64, .f32⟩
  | .hbm, ⟨66, _⟩ => ⟨S1600000x64, .f32⟩
  | .hbm, ⟨67, _⟩ => ⟨S_, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S1600000x64, .f32⟩
  | .hbm, ⟨72, _⟩ => ⟨S1600000x64, .f32⟩
  | .hbm, ⟨73, _⟩ => ⟨S1600000x64, .f32⟩
  | .hbm, ⟨74, _⟩ => ⟨S_, .f32⟩
  | .hbm, ⟨75, _⟩ => ⟨S100000x64, .f32⟩
  | .hbm, ⟨76, _⟩ => ⟨S1600000x1, .i32⟩
  | .hbm, ⟨77, _⟩ => ⟨S100000x64, .f32⟩
  | .hbm, ⟨78, _⟩ => ⟨S100000x64, .f32⟩
  | .hbm, ⟨79, _⟩ => ⟨S_, .f32⟩
  | .hbm, ⟨80, _⟩ => ⟨S64, .f32⟩
  | .hbm, ⟨81, _⟩ => ⟨S_, .f32⟩
  | .hbm, ⟨82, _⟩ => ⟨S64, .f32⟩
  | .hbm, ⟨83, _⟩ => ⟨S64, .f32⟩
  | .hbm, ⟨84, _⟩ => ⟨S1x64, .f32⟩
  | .hbm, ⟨85, _⟩ => ⟨S100000x64, .f32⟩
  | .hbm, ⟨86, _⟩ => ⟨S100000x64, .f32⟩
  | .hbm, ⟨87, _⟩ => ⟨S100000x64, .f32⟩
  | .hbm, ⟨88, _⟩ => ⟨S_, .f32⟩
  | .hbm, ⟨89, _⟩ => ⟨S64, .f32⟩
  | .hbm, ⟨90, _⟩ => ⟨S_, .f32⟩
  | .hbm, ⟨91, _⟩ => ⟨S64, .f32⟩
  | .hbm, ⟨92, _⟩ => ⟨S64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S1x64, .f32⟩
  | .hbm, ⟨97, _⟩ => ⟨S100000x64, .f32⟩
  | .hbm, ⟨98, _⟩ => ⟨S100000x64, .f32⟩
  | .hbm, ⟨99, _⟩ => ⟨S_, .f32⟩
  | .hbm, ⟨100, _⟩ => ⟨S64, .f32⟩
  | .hbm, ⟨101, _⟩ => ⟨S64, .f32⟩
  | .hbm, ⟨102, _⟩ => ⟨S64, .f32⟩
  | .hbm, ⟨103, _⟩ => ⟨S1x64, .f32⟩
  | .hbm, ⟨104, _⟩ => ⟨S100000x64, .f32⟩
  | .hbm, ⟨105, _⟩ => ⟨S100000x64, .f32⟩
  | .hbm, ⟨106, _⟩ => ⟨S1x64, .f32⟩
  | .hbm, ⟨107, _⟩ => ⟨S100000x64, .f32⟩
  | .hbm, ⟨108, _⟩ => ⟨S100000x64, .f32⟩
  | .hbm, ⟨109, _⟩ => ⟨S_, .f32⟩
  | .hbm, ⟨110, _⟩ => ⟨S100000x64, .f32⟩
  | .hbm, ⟨111, _⟩ => ⟨S100000x64, .f32⟩
  | .hbm, ⟨112, _⟩ => ⟨S_, .f32⟩
  | .hbm, ⟨113, _⟩ => ⟨S100000x64, .f32⟩
  | .hbm, ⟨114, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_1 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_cst_7 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_8 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_cst_9 : Ref sig .tc := ⟨.hbm, 79, rfl⟩
abbrev main_v56 : Ref sig .tc := ⟨.hbm, 80, rfl⟩
abbrev main_cst_10 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_cst_12 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_cst_13 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_cst_14 : Ref sig .tc := ⟨.hbm, 109, rfl⟩
abbrev main_v81 : Ref sig .tc := ⟨.hbm, 110, rfl⟩
abbrev main_v82 : Ref sig .tc := ⟨.hbm, 111, rfl⟩
abbrev main_call0_cst : Ref sig .tc := ⟨.hbm, 112, rfl⟩
abbrev main_call0_v0 : Ref sig .tc := ⟨.hbm, 113, rfl⟩
abbrev main_v83 : Ref sig .tc := ⟨.hbm, 114, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1x64_S1600000x64_0_1 : S1x64.BroadcastsInDim S1600000x64 (![0, 1] : Fin 2 → Fin S1600000x64.rank)
  concatenates_S1600000x64_S1600000x64_S1600000x128_d1 : Shape.Concatenates [S1600000x64, S1600000x64] S1600000x128 1
  bcast_S_S1600000x64 : S_.BroadcastsInDim S1600000x64 (![] : Fin 0 → Fin S1600000x64.rank)
  bcast_S_S100000x64 : S_.BroadcastsInDim S100000x64 (![] : Fin 0 → Fin S100000x64.rank)
  reducesTo_S100000x64_S64_d0 : S100000x64.ReducesTo [0] S64
  h_S_ : 0 < S_.numel
  bcast_S_S64 : S_.BroadcastsInDim S64 (![] : Fin 0 → Fin S64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x64_S100000x64_1_0_0_1_n_n_wf : DotDims.WF S100000x128 S128x64 S100000x64 [1] [0] [0] [1] [] []
  dot_S1600000x32_S32x64_S1600000x64_1_0_0_1_n_n_wf : DotDims.WF S1600000x32 S32x64 S1600000x64 [1] [0] [0] [1] [] []
  gather_S100000x64_S1600000x1_S1600000x64_1_0_n_n_0_1_164_wf : GatherDims.WF S100000x64 S1600000x1 S1600000x64 [1] [0] [] [0] [] 1 ![1, 64]
  dot_S1600000x128_S128x64_S1600000x64_1_0_0_1_n_n_wf : DotDims.WF S1600000x128 S128x64 S1600000x64 [1] [0] [0] [1] [] []
  scatter_S100000x64_S1600000x1_S1600000x64_1_0_0_1_wf : ScatterDims.WF S100000x64 S1600000x1 S1600000x64 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def dot_S1600000x32_S32x64_S1600000x64_1_0_0_1_n_n : DotDims S1600000x32 S32x64 S1600000x64 where
  lhsContracting := [1]
  rhsContracting := [0]
  lhsNonContracting := [0]
  rhsNonContracting := [1]
  lhsBatch := []
  rhsBatch := []
  wf := dot_S1600000x32_S32x64_S1600000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x128_S128x64_S1600000x64_1_0_0_1_n_n : DotDims S1600000x128 S128x64 S1600000x64 where
  lhsContracting := [1]
  rhsContracting := [0]
  lhsNonContracting := [0]
  rhsNonContracting := [1]
  lhsBatch := []
  rhsBatch := []
  wf := dot_S1600000x128_S128x64_S1600000x64_1_0_0_1_n_n_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Spec.lean ====
import Idealize.ShloMosaic.PureOps.Ideal
import Idealize.ShloMosaic.Lib.ValueIdx

/-!
# The layer as whole-array functions on the extended reals

A graph layer over 100000 nodes and 1600000 edges: a mean-aggregating linear map of the nodes, a gated
per-edge contribution, and a normalisation followed by a doubled rectifier. The three dense stages are stated
here entry by entry, at explicit row and column coordinates; the gathers and scatters between them are
whatever the two programs share and do not appear.

* `nodeLin`  : row r, column j ↦ (Σₖ agg[r,k]·Wl[k,j] + Σₖ x[r,k]·Wr[k,j]) + bl[0,j]
* `edgeLin`  : edge e, column j ↦ Σₖ ea[e,k]·We[k,j] + be[0,j]
* `gateIn`   : edge e, column k ↦ the destination node's row for k < 64, the edge's linear image for k ≥ 64
* `edgeGate` : edge e, column j ↦ σ(Σₖ gateIn[e,k]·Wg[k,j] + bg[0,j]) · edgeLin[e,j], σ the logistic function
* `bnRelu`   : row r, column j ↦ max (2·(γ[0,j]·((out[r,j] − μ[0,j])·ι[0,j]) + β[0,j])) 0
-/

noncomputable section

namespace Cert.Layer

open Idealize.ShloMosaic Idealize.ShloMosaic.ValueIdx

/-- A rank-2 array of extended reals with literal extents. -/
abbrev Arr (n0 n1 : Nat) : Type := (⟨2, ![n0, n1]⟩ : Shape).Idx → EReal

/-- The word of the float 2. -/
abbrev two : EReal := Ideal.ofBits .f32 0x40000000#32
/-- The word of the float 0. -/
abbrev zero : EReal := Ideal.ofBits .f32 0x00000000#32

/-- Row `r` of `a` against column `j` of `w`. -/
def dotAt {K : Nat} {N M : Nat} (a : Arr N K) (w : Arr K M) (r : Fin N) (j : Fin M) : EReal :=
  ∑ k : Fin K, a (ix2 r k) * w (ix2 k j)

/-- The node stage at row `r`, column `j`. -/
def nodeLinAt (agg x : Arr 100000 128) (Wl Wr : Arr 128 64) (bl : Arr 1 64) (r : Fin 100000) (j : Fin 64) : EReal :=
  (dotAt agg Wl r j + dotAt x Wr r j) + bl (ix2 0 j)

def nodeLin (agg x : Arr 100000 128) (Wl Wr : Arr 128 64) (bl : Arr 1 64) : Arr 100000 64 :=
  fun i => nodeLinAt agg x Wl Wr bl ⟨(i 0).val, (i 0).isLt⟩ ⟨(i 1).val, (i 1).isLt⟩

/-- The edge attributes' linear image at edge `e`, column `j`. -/
def edgeLinAt (ea : Arr 1600000 32) (We : Arr 32 64) (be : Arr 1 64) (e : Fin 1600000) (j : Fin 64) : EReal :=
  dotAt ea We e j + be (ix2 0 j)

/-- What the gate's matrix multiplies at edge `e`, column `k` of 128: the gathered node row, then the edge's image. -/
def gateInAt (oc : Arr 1600000 64) (ea : Arr 1600000 32) (We : Arr 32 64) (be : Arr 1 64) (e : Fin 1600000) (k : Fin 128) : EReal :=
  if h : k.val < 64 then oc (ix2 e ⟨k.val, h⟩) else edgeLinAt ea We be e ⟨k.val - 64, by omega⟩

/-- The gated contribution at edge `e`, column `j`. -/
def edgeGateAt (ea : Arr 1600000 32) (oc : Arr 1600000 64) (We : Arr 32 64) (be : Arr 1 64) (Wg : Arr 128 64) (bg : Arr 1 64)
    (e : Fin 1600000) (j : Fin 64) : EReal :=
  Ideal.logistic ((∑ k : Fin 128, gateInAt oc ea We be e k * Wg (ix2 k j)) + bg (ix2 0 j)) * edgeLinAt ea We be e j

def edgeGate (ea : Arr 1600000 32) (oc : Arr 1600000 64) (We : Arr 32 64) (be : Arr 1 64) (Wg : Arr 128 64) (bg : Arr 1 64) :
    Arr 1600000 64 :=
  fun i => edgeGateAt ea oc We be Wg bg ⟨(i 0).val, (i 0).isLt⟩ ⟨(i 1).val, (i 1).isLt⟩

/-- The normalised, doubled and rectified entry at row `r`, column `j`. -/
def bnReluAt (out : Arr 100000 64) (mu inv g b : Arr 1 64) (r : Fin 100000) (j : Fin 64) : EReal :=
  max (two * (g (ix2 0 j) * ((out (ix2 r j) - mu (ix2 0 j)) * inv (ix2 0 j)) + b (ix2 0 j))) zero

def bnRelu (out : Arr 100000 64) (mu inv g b : Arr 1 64) : Arr 100000 64 :=
  fun i => bnReluAt out mu inv g b ⟨(i 0).val, (i 0).isLt⟩ ⟨(i 1).val, (i 1).isLt⟩

theorem nodeLin_ix2 (agg x : Arr 100000 128) (Wl Wr : Arr 128 64) (bl : Arr 1 64) (r : Fin 100000) (j : Fin 64) :
    nodeLin agg x Wl Wr bl (ix2 r j) = nodeLinAt agg x Wl Wr bl r j := rfl

theorem edgeGate_ix2 (ea : Arr 1600000 32) (oc : Arr 1600000 64) (We : Arr 32 64) (be : Arr 1 64) (Wg : Arr 128 64) (bg : Arr 1 64)
    (e : Fin 1600000) (j : Fin 64) :
    edgeGate ea oc We be Wg bg (ix2 e j) = edgeGateAt ea oc We be Wg bg e j := rfl

theorem bnRelu_ix2 (out : Arr 100000 64) (mu inv g b : Arr 1 64) (r : Fin 100000) (j : Fin 64) :
    bnRelu out mu inv g b (ix2 r j) = bnReluAt out mu inv g b r j := rfl

end Cert.Layer

end
-- ==== Proof.Region0.lean ====
import proofs.«178715_j24051816857689_1_alg».proof.Proof.Gen.KernelIdeal.Frame
import proofs.«178715_j24051816857689_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The node stage of the layer, block by block

The first kernel sweeps the 100000 node rows in 50 blocks of 2000. On each block it forms
(agg·Wl + x·Wr) + bl: two products of a 2000 × 128 block with a 128 × 64 matrix, their sum, and the bias row
added to every row. On the extended reals a rounding to a narrower format is the identity and a product into a
zero accumulator is the plain sum over the 128 contracted columns, so each block of the output is the node stage
`Cert.Layer.nodeLin` of the whole arrays read through the block's rows. The blocks tile the array, hence the
array after the sweep is `nodeLin` of the arrays the sweep found.
-/

set_option maxRecDepth 16384

noncomputable section

namespace Cert.KernelIdeal.Region0

open Idealize.ShloMosaic Idealize.ShloMosaic.TcCoe Idealize.SL.Sem Idealize.ShloMosaic.ValueIdx
open Cert.KernelIdeal Cert.KernelIdeal.Gen Cert.Layer

/-! ## The block product at an index

The kernel multiplies a block of 2000 rows by a 128 × 64 matrix into a zero accumulator: entry (p, q) is the
sum over k of lhs[p,k]·rhs[k,q]. The four lemmas read the two operands' coordinates off the contraction. -/

theorem lhs_mm_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_mm_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_mm_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_mm_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product of a 2000 × 128 block and a 128 × 64 matrix into the zero accumulator, at (p, q). -/
theorem mm_apply {φ₁ φ₂ : FTy} (a : FVec Ideal S2000x128 φ₁) (w : FVec Ideal S128x64 φ₂) (p : Fin 2000) (q : Fin 64) :
    matmul dot_S2000x128_S128x64_S2000x64_1_0_0_1_n_n none a w (constant (F := Ideal) S2000x64 .f32 0x00000000#32) (ix2 p q)
      = ∑ k : Fin 128, a (ix2 p k) * w (ix2 k q) := by
  refine (Ideal.matmul_constant_zero_apply dot_S2000x128_S128x64_S2000x64_1_0_0_1_n_n none a w (ix2 p q)).trans ?_
  rw [← Equiv.sum_comp (ValueIdx.contrEquiv1 dot_S2000x128_S128x64_S2000x64_1_0_0_1_n_n 128 rfl rfl).symm]
  refine Finset.sum_congr rfl fun k _ => ?_
  have hk := ValueIdx.contrEquiv1_symm_val dot_S2000x128_S128x64_S2000x64_1_0_0_1_n_n 128 rfl rfl k
  have el : dot_S2000x128_S128x64_S2000x64_1_0_0_1_n_n.lhsIdx (ix2 p q) ((ValueIdx.contrEquiv1 dot_S2000x128_S128x64_S2000x64_1_0_0_1_n_n 128 rfl rfl).symm k) = ix2 p k := funext fun a => Fin.ext (by
    match a with
    | ⟨0, _⟩ => exact lhs_mm_0 _ _
    | ⟨1, _⟩ => exact (lhs_mm_1 _ _).trans hk)
  have er : dot_S2000x128_S128x64_S2000x64_1_0_0_1_n_n.rhsIdx (ix2 p q) ((ValueIdx.contrEquiv1 dot_S2000x128_S128x64_S2000x64_1_0_0_1_n_n 128 rfl rfl).symm k) = ix2 k q := funext fun a => Fin.ext (by
    match a with
    | ⟨0, _⟩ => exact (rhs_mm_0 _ _).trans hk
    | ⟨1, _⟩ => exact rhs_mm_1 _ _)
  rw [el, er]

/-! ## The body's value at an index

One block of the output: (agg·Wl + x·Wr) + bl, the roundings and the identity reshapes being the identity on the
extended reals, the bias row repeated down the block. -/

theorem pay_apply (x0 x1 : Vec Ideal S2000x128 .f32) (x2 x3 : Vec Ideal S128x64 .f32) (x4 : Vec Ideal S1x64 .f32)
    (p : Fin 2000) (q : Fin 64) :
    k0_pay1 (F := Ideal) x0 x1 x2 x3 x4 (ix2 p q)
      = ((∑ k : Fin 128, x0 (ix2 p k) * x2 (ix2 k q)) + (∑ k : Fin 128, x1 (ix2 p k) * x3 (ix2 k q))) + x4 (ix2 0 q) := by
  unfold k0_pay1
  simp only [shapeCast_self]
  rw [addf_apply, addf_apply, mm_apply, mm_apply, broadcastTo_1b_ab_apply]
  rfl

/-! ## Which block each operand's window shows at a grid point

The grid has 50 points. At point t the aggregated rows, the node rows and the output all show block t of 2000
rows, and the two matrices and the bias row sit whole at block (0, 0). -/

theorem block_indices : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 49 ∧ win0_5.index t (1 : Fin 2) = 0 :=
  (by decide +kernel : ∀ t : Fin grid0.N, _)

/-- Every one of the 50 row blocks of the output is some point's. -/
theorem block_onto : ∀ q0 : Fin 50, ∃ t : Fin cfg0.N, win0_5.index t = ![q0.val, 0] :=
  (by decide +kernel : ∀ q0 : Fin 50, ∃ t : Fin grid0.N, win0_5.index t = ![q0.val, 0])

/-- Row p of point t's block is row (block index)·2000 + p of the array. -/
def row (t : Fin cfg0.N) (p : Fin 2000) : Fin 100000 :=
  ⟨win0_5.index t (0 : Fin 2) * 2000 + p.val, by
    have h := (block_indices t).2.2.2.2.2.2.2.2.2.2.1
    have hp := p.isLt
    omega⟩

theorem zero_offsets : (![0, 0] : Fin 2 → Nat) = fun _ => 0 := funext fun a => by fin_cases a <;> rfl

variable (V : (c : Dev nD) → (b : Ref sig .tc) → Buf (Elt Ideal) ((c : Thread nD τ).loc b))

/-! ## What each window's block holds, entry by entry -/

theorem agg_blk (c : Dev nD) (t : Fin cfg0.N) (p : Fin 2000) (k : Fin 128) :
    iblk0 (F := Ideal) V c 0 t (ix2 p k) = V c main_v22 (ix2 (row t p) k) := by
  obtain ⟨e00, e01, e10, e11, e20, e21, e30, e31, e40, e41, e50, e51⟩ := block_indices t
  show V c main_v22 (((cfg0.win 0).blk t).view.emb (ix2 p k)) = V c main_v22 (ix2 (row t p) k)
  refine congrArg (V c main_v22) (funext fun a => Fin.ext ?_)
  match a with
  | ⟨0, _⟩ => show win0_0.index t (0 : Fin 2) * 2000 + 1 * p.val = win0_5.index t (0 : Fin 2) * 2000 + p.val; omega
  | ⟨1, _⟩ => show win0_0.index t (1 : Fin 2) * 128 + 1 * k.val = k.val; omega

theorem x_blk (c : Dev nD) (t : Fin cfg0.N) (p : Fin 2000) (k : Fin 128) :
    iblk0 (F := Ideal) V c 1 t (ix2 p k) = V c main_arg0 (ix2 (row t p) k) := by
  obtain ⟨e00, e01, e10, e11, e20, e21, e30, e31, e40, e41, e50, e51⟩ := block_indices t
  show V c main_arg0 (((cfg0.win 1).blk t).view.emb (ix2 p k)) = V c main_arg0 (ix2 (row t p) k)
  refine congrArg (V c main_arg0) (funext fun a => Fin.ext ?_)
  match a with
  | ⟨0, _⟩ => show win0_1.index t (0 : Fin 2) * 2000 + 1 * p.val = win0_5.index t (0 : Fin 2) * 2000 + p.val; omega
  | ⟨1, _⟩ => show win0_1.index t (1 : Fin 2) * 128 + 1 * k.val = k.val; omega

theorem Wl_blk (c : Dev nD) (t : Fin cfg0.N) (k : Fin 128) (q : Fin 64) :
    iblk0 (F := Ideal) V c 2 t (ix2 k q) = V c main_arg3 (ix2 k q) := by
  obtain ⟨e00, e01, e10, e11, e20, e21, e30, e31, e40, e41, e50, e51⟩ := block_indices t
  show V c main_arg3 (((cfg0.win 2).blk t).view.emb (ix2 k q)) = V c main_arg3 (ix2 k q)
  refine congrArg (V c main_arg3) (funext fun a => Fin.ext ?_)
  match a with
  | ⟨0, _⟩ => show win0_2.index t (0 : Fin 2) * 128 + 1 * k.val = k.val; omega
  | ⟨1, _⟩ => show win0_2.index t (1 : Fin 2) * 64 + 1 * q.val = q.val; omega

theorem Wr_blk (c : Dev nD) (t : Fin cfg0.N) (k : Fin 128) (q : Fin 64) :
    iblk0 (F := Ideal) V c 3 t (ix2 k q) = V c main_arg5 (ix2 k q) := by
  obtain ⟨e00, e01, e10, e11, e20, e21, e30, e31, e40, e41, e50, e51⟩ := block_indices t
  show V c main_arg5 (((cfg0.win 3).blk t).view.emb (ix2 k q)) = V c main_arg5 (ix2 k q)
  refine congrArg (V c main_arg5) (funext fun a => Fin.ext ?_)
  match a with
  | ⟨0, _⟩ => show win0_3.index t (0 : Fin 2) * 128 + 1 * k.val = k.val; omega
  | ⟨1, _⟩ => show win0_3.index t (1 : Fin 2) * 64 + 1 * q.val = q.val; omega

theorem bl_blk (c : Dev nD) (t : Fin cfg0.N) (q : Fin 64) :
    iblk0 (F := Ideal) V c 4 t (ix2 (0 : Fin 1) q) = V c main_v23 (ix2 (0 : Fin 1) q) := by
  obtain ⟨e00, e01, e10, e11, e20, e21, e30, e31, e40, e41, e50, e51⟩ := block_indices t
  show V c main_v23 (((cfg0.win 4).blk t).view.emb (ix2 (0 : Fin 1) q)) = V c main_v23 (ix2 (0 : Fin 1) q)
  refine congrArg (V c main_v23) (funext fun a => Fin.ext ?_)
  match a with
  | ⟨0, _⟩ => show win0_4.index t (0 : Fin 2) * 1 + 1 * 0 = 0; omega
  | ⟨1, _⟩ => show win0_4.index t (1 : Fin 2) * 64 + 1 * q.val = q.val; omega

/-- Entry (p, q) of the output's block at point t is entry (row t p, q) of the array. -/
theorem out_emb (t : Fin cfg0.N) (p : Fin 2000) (q : Fin 64) :
    ((cfg0.win 5).blk t).view.emb (ix2 p q) = ix2 (row t p) q := by
  obtain ⟨e00, e01, e10, e11, e20, e21, e30, e31, e40, e41, e50, e51⟩ := block_indices t
  refine funext fun a => Fin.ext ?_
  match a with
  | ⟨0, _⟩ => show win0_5.index t (0 : Fin 2) * 2000 + 1 * p.val = win0_5.index t (0 : Fin 2) * 2000 + p.val; omega
  | ⟨1, _⟩ => show win0_5.index t (1 : Fin 2) * 64 + 1 * q.val = q.val; omega

/-! ## What a grid point writes back

Point t leaves in the output's block the node stage of the whole arrays, read through the block's rows. -/

theorem flushed_eq (c : Dev nD) (t : Fin cfg0.N) :
    (dat0 (F := Ideal) V c).flushed 5 t = ((cfg0.win 5).blk t).view.read (Elt Ideal)
      (nodeLin (V c main_v22) (V c main_arg0) (V c main_arg3) (V c main_arg5) (V c main_v23)) := by
  show (cfg0.win 5).cut (grid0.coords t) ((dat0 (F := Ideal) V c).after 5 t) = _
  rw [after0_5]
  unfold out0_5
  rw [View.canon_unit_zero zero_offsets]
  simp only [View.ld_unit_zero (S := S2000x128) zero_offsets, View.ld_unit_zero (S := S128x64) zero_offsets, View.ld_unit_zero (S := S1x64) zero_offsets]
  funext j
  obtain ⟨p, q, rfl⟩ : ∃ (p : Fin 2000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (ix2 p q)
    = nodeLin (V c main_v22) (V c main_arg0) (V c main_arg3) (V c main_arg5) (V c main_v23) (((cfg0.win 5).blk t).view.emb (ix2 p q))
  refine (pay_apply (iblk0 V c 0 t) (iblk0 V c 1 t) (iblk0 V c 2 t) (iblk0 V c 3 t) (iblk0 V c 4 t) p q).trans ?_
  rw [out_emb, nodeLin_ix2]
  unfold nodeLinAt dotAt
  rw [bl_blk]
  refine congrArg (· + _) (congrArg₂ (· + ·) (Finset.sum_congr rfl fun k _ => ?_) (Finset.sum_congr rfl fun k _ => ?_))
  · rw [agg_blk, Wl_blk]
  · rw [x_blk, Wr_blk]

/-! ## From the blocks to the array

The 50 blocks of 2000 rows tile the 100000 rows: row r lies in block r / 2000. So after the last point the
array holds the node stage everywhere. -/

/-- An index of the array is in point t's block iff each coordinate is in the block's range on its axis. -/
theorem mem_blk (t : Fin cfg0.N) (i : S100000x64.Idx) :
    i ∈ ((cfg0.win 5).blk t).view.set ↔ ∀ a : Fin 2, win0_5.index t a * S2000x64.size a ≤ (i a).val ∧ (i a).val < win0_5.index t a * S2000x64.size a + S2000x64.size a := by
  show i ∈ ((View.whole main_v24).slice (win0_5.rect t)).set ↔ _
  rw [View.set_slice_whole, Rect.mem_set_unit]
  exact Iff.rfl

/-- Every index of the array is in some point's block. -/
theorem covered (i : S100000x64.Idx) :
    ∃ t : Fin cfg0.N, (cfg0.win 5).flush t = true ∧ i ∈ ((cfg0.win 5).blk t).view.set := by
  have hi0 : (i 0).val < 100000 := (i 0).isLt
  have hi1 : (i 1).val < 64 := (i 1).isLt
  obtain ⟨t, ht⟩ := block_onto ⟨(i 0).val / 2000, by omega⟩
  have q0 : win0_5.index t (0 : Fin 2) = (i 0).val / 2000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 2000 ≤ (i 0).val ∧ (i 0).val < win0_5.index t (0 : Fin 2) * 2000 + 2000; omega
  | ⟨1, _⟩ => show win0_5.index t (1 : Fin 2) * 64 ≤ (i 1).val ∧ (i 1).val < win0_5.index t (1 : Fin 2) * 64 + 64; omega

/-- The output array after the region is the node stage (agg·Wl + x·Wr) + bl of the arrays the region found. -/
theorem value (c : Dev nD) :
    (dat0 (F := Ideal) V c).arrAt 5 cfg0.N = nodeLin (V c main_v22) (V c main_arg0) (V c main_arg3) (V c main_arg5) (V c main_v23) :=
  (dat0 (F := Ideal) V c).arrAt_eq_of_cover 5 _ (fun t _ => flushed_eq V c t) covered

end Cert.KernelIdeal.Region0

end
-- ==== Proof.Region1.lean ====
import proofs.«178715_j24051816857689_1_alg».proof.Proof.Gen.KernelIdeal.Frame
import proofs.«178715_j24051816857689_1_alg».proof.Proof.Spec
import Idealize.ShloMosaic.Lib.Pipeline.Value
import Idealize.ShloMosaic.Lib.ValueIdx
import Idealize.ShloMosaic.Lib.ValueLayout
import Idealize.ShloMosaic.PureOps.Ideal.Laws

/-!
# The gated edge stage, block by block, is the whole-array gated edge function

Each grid point handles 8000 consecutive edges. On its block of edge attributes `ea` and of gathered node rows `oc`
it forms the linear image `lin = ea·We + be`, the gate's argument `[oc | lin]·Wg + bg` over 128 columns, and writes
`σ(gate)·lin`. Read entry by entry this is `Cert.Layer.edgeGateAt` of the whole arrays at the edge
`8000·t + p`; the 200 blocks tile the 1600000 edges, so the array after the run is `Cert.Layer.edgeGate`.
-/

set_option maxRecDepth 16384

noncomputable section

namespace Cert.KernelIdeal.Region1

open Idealize.ShloMosaic Idealize.ShloMosaic.TcCoe Idealize.SL.Sem Idealize.ShloMosaic.ValueIdx
open Idealize.ShloMosaic.Pipeline (Dat)
open Cert.KernelIdeal Cert.KernelIdeal.Gen Cert.Layer

/-! ## The two matrix products at an entry -/

theorem lhs_lin_0 (i : S8000x64.Idx) (q : dot_S8000x32_S32x64_S8000x64_1_0_0_1_n_n.contr.Idx) :
    (dot_S8000x32_S32x64_S8000x64_1_0_0_1_n_n.lhsIdx i q 0).val = (i 0).val := by
  unfold DotDims.lhsIdx
  rw [dif_neg (show ¬(0 : Fin S8000x32.rank) ∈ dot_S8000x32_S32x64_S8000x64_1_0_0_1_n_n.lhsBatch by decide), dif_pos (show (0 : Fin S8000x32.rank) ∈ dot_S8000x32_S32x64_S8000x64_1_0_0_1_n_n.lhsNonContracting by decide)]
  rfl
theorem lhs_lin_1 (i : S8000x64.Idx) (q : dot_S8000x32_S32x64_S8000x64_1_0_0_1_n_n.contr.Idx) :
    (dot_S8000x32_S32x64_S8000x64_1_0_0_1_n_n.lhsIdx i q 1).val = (q ⟨0, by decide⟩).val :=
  dot_S8000x32_S32x64_S8000x64_1_0_0_1_n_n.lhsIdx_val_of_single rfl i q
theorem rhs_lin_0 (i : S8000x64.Idx) (q : dot_S8000x32_S32x64_S8000x64_1_0_0_1_n_n.contr.Idx) :
    (dot_S8000x32_S32x64_S8000x64_1_0_0_1_n_n.rhsIdx i q 0).val = (q ⟨0, by decide⟩).val :=
  dot_S8000x32_S32x64_S8000x64_1_0_0_1_n_n.rhsIdx_val_of_single rfl i q
theorem rhs_lin_1 (i : S8000x64.Idx) (q : dot_S8000x32_S32x64_S8000x64_1_0_0_1_n_n.contr.Idx) :
    (dot_S8000x32_S32x64_S8000x64_1_0_0_1_n_n.rhsIdx i q 1).val = (i 1).val := by
  unfold DotDims.rhsIdx
  rw [dif_neg (show ¬(1 : Fin S32x64.rank) ∈ dot_S8000x32_S32x64_S8000x64_1_0_0_1_n_n.rhsBatch by decide), dif_pos (show (1 : Fin S32x64.rank) ∈ dot_S8000x32_S32x64_S8000x64_1_0_0_1_n_n.rhsNonContracting by decide)]
  rfl

/-- The 32-term product at row `p`, column `q`: Σₖ a[p,k]·w[k,q]. -/
theorem matmul_lin_apply (a : FVec Ideal S8000x32 .bf16) (w : FVec Ideal S32x64 .bf16) (p : Fin 8000) (q : Fin 64) :
    matmul dot_S8000x32_S32x64_S8000x64_1_0_0_1_n_n none a w (constant (F := Ideal) S8000x64 .f32 0x00000000#32) (ix2 p q)
      = ∑ k : Fin 32, a (ix2 p k) * w (ix2 k q) := by
  show FloatOps.matmul dot_S8000x32_S32x64_S8000x64_1_0_0_1_n_n none a w (constant (F := Ideal) S8000x64 .f32 0x00000000#32) (ix2 p q) = _
  rw [Ideal.matmul_constant_zero_apply, ← Equiv.sum_comp (ValueIdx.contrEquiv1 dot_S8000x32_S32x64_S8000x64_1_0_0_1_n_n 32 rfl rfl).symm]
  refine Finset.sum_congr rfl fun k _ => ?_
  have hk := ValueIdx.contrEquiv1_symm_val dot_S8000x32_S32x64_S8000x64_1_0_0_1_n_n 32 rfl rfl k
  have el : dot_S8000x32_S32x64_S8000x64_1_0_0_1_n_n.lhsIdx (ix2 p q) ((ValueIdx.contrEquiv1 dot_S8000x32_S32x64_S8000x64_1_0_0_1_n_n 32 rfl rfl).symm k) = ix2 p k := funext fun a => Fin.ext (by
    match a with
    | ⟨0, _⟩ => exact lhs_lin_0 _ _
    | ⟨1, _⟩ => exact (lhs_lin_1 _ _).trans hk)
  have er : dot_S8000x32_S32x64_S8000x64_1_0_0_1_n_n.rhsIdx (ix2 p q) ((ValueIdx.contrEquiv1 dot_S8000x32_S32x64_S8000x64_1_0_0_1_n_n 32 rfl rfl).symm k) = ix2 k q := funext fun a => Fin.ext (by
    match a with
    | ⟨0, _⟩ => exact (rhs_lin_0 _ _).trans hk
    | ⟨1, _⟩ => exact rhs_lin_1 _ _)
  rw [el, er]

theorem lhs_gate_0 (i : S8000x64.Idx) (q : dot_S8000x128_S128x64_S8000x64_1_0_0_1_n_n.contr.Idx) :
    (dot_S8000x128_S128x64_S8000x64_1_0_0_1_n_n.lhsIdx i q 0).val = (i 0).val := by
  unfold DotDims.lhsIdx
  rw [dif_neg (show ¬(0 : Fin S8000x128.rank) ∈ dot_S8000x128_S128x64_S8000x64_1_0_0_1_n_n.lhsBatch by decide), dif_pos (show (0 : Fin S8000x128.rank) ∈ dot_S8000x128_S128x64_S8000x64_1_0_0_1_n_n.lhsNonContracting by decide)]
  rfl
theorem lhs_gate_1 (i : S8000x64.Idx) (q : dot_S8000x128_S128x64_S8000x64_1_0_0_1_n_n.contr.Idx) :
    (dot_S8000x128_S128x64_S8000x64_1_0_0_1_n_n.lhsIdx i q 1).val = (q ⟨0, by decide⟩).val :=
  dot_S8000x128_S128x64_S8000x64_1_0_0_1_n_n.lhsIdx_val_of_single rfl i q
theorem rhs_gate_0 (i : S8000x64.Idx) (q : dot_S8000x128_S128x64_S8000x64_1_0_0_1_n_n.contr.Idx) :
    (dot_S8000x128_S128x64_S8000x64_1_0_0_1_n_n.rhsIdx i q 0).val = (q ⟨0, by decide⟩).val :=
  dot_S8000x128_S128x64_S8000x64_1_0_0_1_n_n.rhsIdx_val_of_single rfl i q
theorem rhs_gate_1 (i : S8000x64.Idx) (q : dot_S8000x128_S128x64_S8000x64_1_0_0_1_n_n.contr.Idx) :
    (dot_S8000x128_S128x64_S8000x64_1_0_0_1_n_n.rhsIdx i q 1).val = (i 1).val := by
  unfold DotDims.rhsIdx
  rw [dif_neg (show ¬(1 : Fin S128x64.rank) ∈ dot_S8000x128_S128x64_S8000x64_1_0_0_1_n_n.rhsBatch by decide), dif_pos (show (1 : Fin S128x64.rank) ∈ dot_S8000x128_S128x64_S8000x64_1_0_0_1_n_n.rhsNonContracting by decide)]
  rfl

/-- The 128-term product at row `p`, column `q`: Σₖ a[p,k]·w[k,q]. -/
theorem matmul_gate_apply (a : FVec Ideal S8000x128 .bf16) (w : FVec Ideal S128x64 .bf16) (p : Fin 8000) (q : Fin 64) :
    matmul dot_S8000x128_S128x64_S8000x64_1_0_0_1_n_n none a w (constant (F := Ideal) S8000x64 .f32 0x00000000#32) (ix2 p q)
      = ∑ k : Fin 128, a (ix2 p k) * w (ix2 k q) := by
  show FloatOps.matmul dot_S8000x128_S128x64_S8000x64_1_0_0_1_n_n none a w (constant (F := Ideal) S8000x64 .f32 0x00000000#32) (ix2 p q) = _
  rw [Ideal.matmul_constant_zero_apply, ← Equiv.sum_comp (ValueIdx.contrEquiv1 dot_S8000x128_S128x64_S8000x64_1_0_0_1_n_n 128 rfl rfl).symm]
  refine Finset.sum_congr rfl fun k _ => ?_
  have hk := ValueIdx.contrEquiv1_symm_val dot_S8000x128_S128x64_S8000x64_1_0_0_1_n_n 128 rfl rfl k
  have el : dot_S8000x128_S128x64_S8000x64_1_0_0_1_n_n.lhsIdx (ix2 p q) ((ValueIdx.contrEquiv1 dot_S8000x128_S128x64_S8000x64_1_0_0_1_n_n 128 rfl rfl).symm k) = ix2 p k := funext fun a => Fin.ext (by
    match a with
    | ⟨0, _⟩ => exact lhs_gate_0 _ _
    | ⟨1, _⟩ => exact (lhs_gate_1 _ _).trans hk)
  have er : dot_S8000x128_S128x64_S8000x64_1_0_0_1_n_n.rhsIdx (ix2 p q) ((ValueIdx.contrEquiv1 dot_S8000x128_S128x64_S8000x64_1_0_0_1_n_n 128 rfl rfl).symm k) = ix2 k q := funext fun a => Fin.ext (by
    match a with
    | ⟨0, _⟩ => exact (rhs_gate_0 _ _).trans hk
    | ⟨1, _⟩ => exact rhs_gate_1 _ _)
  rw [el, er]

/-! ## The two halves of the gate's argument -/

/-- Two 8000 × 64 pieces side by side, read at row `p`, column `k` of 128: the first piece for `k < 64`, the second
    at column `k − 64` otherwise. -/
theorem concat_apply (a b : S8000x64.Idx → EReal) (h : Shape.Concatenates [S8000x64, S8000x64] S8000x128 1)
    (p : Fin 8000) (k : Fin 128) :
    concatenate S8000x128 1 [⟨S8000x64, a⟩, ⟨S8000x64, b⟩] h (ix2 p k)
      = if hk : k.val < 64 then a (ix2 p ⟨k.val, hk⟩) else b (ix2 p ⟨k.val - 64, by omega⟩) := by
  split
  · next hk =>
    refine concatenate_pair_apply_left (1 : Fin S8000x128.rank) a b h (ix2 p k) rfl (ix2 p ⟨k.val, hk⟩) fun bb => ?_
    match bb with
    | ⟨0, _⟩ => rfl
    | ⟨1, _⟩ => rfl
  · next hk =>
    refine concatenate_pair_apply_right (1 : Fin S8000x128.rank) a b h (ix2 p k) rfl rfl (ix2 p ⟨k.val - 64, by omega⟩) (fun bb hb => ?_) ?_
    · match bb with
      | ⟨0, _⟩ => rfl
      | ⟨1, _⟩ => exact absurd rfl hb
    · show k.val - 64 + 64 = k.val
      omega

/-! ## What a block's body computes, entry by entry -/

/-- The linear image of a block of edge attributes at row `p`, column `j`: Σₖ ea[p,k]·We[k,j] + be[0,j]. -/
def linB (ea : Vec Ideal S8000x32 .f32) (We : Vec Ideal S32x64 .f32) (be : Vec Ideal S1x64 .f32) (p : Fin 8000) (j : Fin 64) : EReal :=
  (∑ k : Fin 32, ea (ix2 p k) * We (ix2 k j)) + be (ix2 0 j)

/-- What the gate's matrix multiplies at row `p`, column `k` of 128: the node row, then the linear image. -/
def gateInB (oc : Vec Ideal S8000x64 .f32) (ea : Vec Ideal S8000x32 .f32) (We : Vec Ideal S32x64 .f32) (be : Vec Ideal S1x64 .f32)
    (p : Fin 8000) (k : Fin 128) : EReal :=
  if h : k.val < 64 then oc (ix2 p ⟨k.val, h⟩) else linB ea We be p ⟨k.val - 64, by omega⟩

/-- The gated contribution of a block at row `p`, column `j`. -/
def gateB (ea : Vec Ideal S8000x32 .f32) (oc : Vec Ideal S8000x64 .f32) (We : Vec Ideal S32x64 .f32) (be : Vec Ideal S1x64 .f32)
    (Wg : Vec Ideal S128x64 .f32) (bg : Vec Ideal S1x64 .f32) (p : Fin 8000) (j : Fin 64) : EReal :=
  Ideal.logistic ((∑ k : Fin 128, gateInB oc ea We be p k * Wg (ix2 k j)) + bg (ix2 0 j)) * linB ea We be p j

/-- The block's linear image, as the body forms it, at an entry. -/
theorem lin_apply (ea : Vec Ideal S8000x32 .f32) (We : Vec Ideal S32x64 .f32) (be : Vec Ideal S1x64 .f32)
    (h1 : FTy.bf16.bits < FTy.f32.bits) (hc : S1x64.ShapeCasts S1x64) (hb : S1x64.Broadcasts S8000x64) (p : Fin 8000) (j : Fin 64) :
    addf (matmul dot_S8000x32_S32x64_S8000x64_1_0_0_1_n_n none (truncf .bf16 ea h1) (truncf .bf16 We h1) (constant (F := Ideal) S8000x64 .f32 0x00000000#32))
        (broadcastTo S8000x64 (shapeCast S1x64 be hc) hb) (ix2 p j) = linB ea We be p j := by
  rw [addf_apply, matmul_lin_apply, shapeCast_self, broadcastTo_1b_ab_apply]
  rfl

/-- The body's stored value at row `p`, column `q` of its block. -/
theorem pay_apply (ea : Vec Ideal S8000x32 .f32) (We : Vec Ideal S32x64 .f32) (be : Vec Ideal S1x64 .f32) (oc : Vec Ideal S8000x64 .f32)
    (Wg : Vec Ideal S128x64 .f32) (bg : Vec Ideal S1x64 .f32) (p : Fin 8000) (q : Fin 64) :
    k1_pay1 (F := Ideal) ea We be oc Wg bg (ix2 p q) = gateB ea oc We be Wg bg p q := by
  simp only [k1_pay1]
  rw [mulf_apply, lin_apply]
  show Ideal.logistic ((addf _ _ : FVec Ideal S8000x64 .f32) (ix2 p q)) * _ = _
  rw [addf_apply, matmul_gate_apply, shapeCast_self oc, shapeCast_self bg, broadcastTo_1b_ab_apply]
  simp only [truncf_apply, concat_apply, lin_apply]
  rfl

/-! ## A block's entry is the whole arrays' entry -/

/-- If row `p` of the two moving blocks is row `e` of their arrays and the four small operands are the arrays
    themselves, the block's gated contribution at `(p, q)` is the layer's at the array index `i = (e, q)`. -/
theorem gateB_eq_edgeGate
    (ea : Vec Ideal S8000x32 .f32) (oc : Vec Ideal S8000x64 .f32) (We : Vec Ideal S32x64 .f32) (be : Vec Ideal S1x64 .f32)
    (Wg : Vec Ideal S128x64 .f32) (bg : Vec Ideal S1x64 .f32)
    (EA : Arr 1600000 32) (OC : Arr 1600000 64) (WE : Arr 32 64) (BE : Arr 1 64) (WG : Arr 128 64) (BG : Arr 1 64)
    (p : Fin 8000) (q : Fin 64) (e : Fin 1600000) (i : (⟨2, ![1600000, 64]⟩ : Shape).Idx)
    (hi0 : (i 0).val = e.val) (hi1 : (i 1).val = q.val)
    (hea : ∀ k : Fin 32, ea (ix2 p k) = EA (ix2 e k))
    (hoc : ∀ k : Fin 64, oc (ix2 p k) = OC (ix2 e k))
    (hWe : ∀ (k : Fin 32) (j : Fin 64), We (ix2 k j) = WE (ix2 k j))
    (hbe : ∀ j : Fin 64, be (ix2 0 j) = BE (ix2 0 j))
    (hWg : ∀ (k : Fin 128) (j : Fin 64), Wg (ix2 k j) = WG (ix2 k j))
    (hbg : ∀ j : Fin 64, bg (ix2 0 j) = BG (ix2 0 j)) :
    gateB ea oc We be Wg bg p q = edgeGate EA OC WE BE WG BG i := by
  have ei : i = ix2 e q := funext fun a => Fin.ext (by
    match a with
    | ⟨0, _⟩ => exact hi0
    | ⟨1, _⟩ => exact hi1)
  subst ei
  rw [edgeGate_ix2]
  have hl : ∀ j : Fin 64, linB ea We be p j = edgeLinAt EA WE BE e j := fun j => by
    unfold linB edgeLinAt dotAt
    rw [hbe]
    exact congrArg (· + BE (ix2 0 j)) (Finset.sum_congr rfl fun k _ => by rw [hea, hWe])
  unfold gateB edgeGateAt
  rw [hl, hbg]
  refine congrArg (fun z => Ideal.logistic (z + BG (ix2 0 q)) * edgeLinAt EA WE BE e q) (Finset.sum_congr rfl fun k _ => ?_)
  rw [hWg]
  unfold gateInB gateInAt
  split
  · rw [hoc]
  · rw [hl]

/-! ## The blocks' places, decided over the 200 grid points -/

theorem zeros : (![0, 0] : Fin 2 → Nat) = fun _ => 0 := funext fun a => by fin_cases a <;> rfl

/-- The two moving inputs sit at the output's block row; every other block index is 0; the block row is at most 199. -/
theorem blockIdx : ∀ t : Fin cfg1.N,
    win1_0.index t (0 : Fin 2) = win1_6.index t (0 : Fin 2) ∧ win1_0.index t (1 : Fin 2) = 0
    ∧ win1_1.index t (0 : Fin 2) = win1_6.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (1 : Fin 2) = 0 ∧ win1_6.index t (0 : Fin 2) ≤ 199 :=
  (by decide +kernel : ∀ t : Fin grid1.N, _)

/-- Every block row below 200 is some grid point's. -/
theorem blockIdx_onto : ∀ q0 : Fin 200, ∃ t : Fin cfg1.N, win1_6.index t = ![q0.val, 0] :=
  (by decide +kernel : ∀ q0 : Fin 200, ∃ t : Fin grid1.N, win1_6.index t = ![q0.val, 0])

/-! ## What a grid point writes back, and the array after the run -/

variable (V : (c : Dev nD) → (b : Ref sig .tc) → Buf (Elt Ideal) ((c : Thread nD τ).loc b))

/-- Grid point `t` writes back block `t` of the layer's gated edge function of the arrays the region finds. -/
theorem flushed_eq (c : Dev nD) (t : Fin cfg1.N) :
    (dat1 (F := Ideal) V c).flushed 6 t = ((cfg1.win 6).blk t).view.read (Elt Ideal)
      (edgeGate (V c main_arg2) (V c main_v31) (V c main_arg6) (V c main_v32) (V c main_arg8) (V c main_v33)) := by
  show (cfg1.win 6).cut (grid1.coords t) ((dat1 V c).after 6 t) = _
  rw [after1_6]
  unfold out1_6
  rw [View.canon_unit_zero zeros]
  simp only [View.ld_unit_zero (S := S8000x32) zeros, View.ld_unit_zero (S := S32x64) zeros, View.ld_unit_zero (S := S1x64) zeros,
    View.ld_unit_zero (S := S8000x64) zeros, View.ld_unit_zero (S := S128x64) zeros]
  obtain ⟨e00, e01, e10, e11, e20, e21, e30, e31, e40, e41, e50, e51, e61, hb⟩ := blockIdx t
  funext j
  obtain ⟨p, q, rfl⟩ : ∃ (p : Fin 8000) (q : Fin 64), j = ix2 p q := ⟨j 0, j 1, eq_ix2 j⟩
  have hp : p.val < 8000 := p.isLt
  have hrow : win1_6.index t (0 : Fin 2) * 8000 + p.val < 1600000 := by omega
  show k1_pay1 (F := Ideal) (iblk1 V c 0 t) (iblk1 V c 2 t) (iblk1 V c 3 t) (iblk1 V c 1 t) (iblk1 V c 4 t) (iblk1 V c 5 t) (ix2 p q)
    = edgeGate (V c main_arg2) (V c main_v31) (V c main_arg6) (V c main_v32) (V c main_arg8) (V c main_v33)
        (((cfg1.win 6).blk t).view.emb (ix2 p q))
  refine (pay_apply _ _ _ _ _ _ p q).trans ?_
  refine gateB_eq_edgeGate _ _ _ _ _ _ _ _ _ _ _ _ p q ⟨win1_6.index t (0 : Fin 2) * 8000 + p.val, hrow⟩ _ ?_ ?_ ?_ ?_ ?_ ?_ ?_ ?_
  · show win1_6.index t (0 : Fin 2) * 8000 + 1 * p.val = win1_6.index t (0 : Fin 2) * 8000 + p.val
    omega
  · show win1_6.index t (1 : Fin 2) * 64 + 1 * q.val = q.val
    omega
  · intro k
    show V c main_arg2 (((cfg1.win 0).blk t).view.emb (ix2 p k)) = V c main_arg2 (ix2 ⟨win1_6.index t (0 : Fin 2) * 8000 + p.val, hrow⟩ k)
    refine congrArg (V c main_arg2) (funext fun a => Fin.ext ?_)
    match a with
    | ⟨0, _⟩ => show win1_0.index t (0 : Fin 2) * 8000 + 1 * p.val = win1_6.index t (0 : Fin 2) * 8000 + p.val; omega
    | ⟨1, _⟩ => show win1_0.index t (1 : Fin 2) * 32 + 1 * k.val = k.val; omega
  · intro k
    show V c main_v31 (((cfg1.win 1).blk t).view.emb (ix2 p k)) = V c main_v31 (ix2 ⟨win1_6.index t (0 : Fin 2) * 8000 + p.val, hrow⟩ k)
    refine congrArg (V c main_v31) (funext fun a => Fin.ext ?_)
    match a with
    | ⟨0, _⟩ => show win1_1.index t (0 : Fin 2) * 8000 + 1 * p.val = win1_6.index t (0 : Fin 2) * 8000 + p.val; omega
    | ⟨1, _⟩ => show win1_1.index t (1 : Fin 2) * 64 + 1 * k.val = k.val; omega
  · intro k j
    show V c main_arg6 (((cfg1.win 2).blk t).view.emb (ix2 k j)) = V c main_arg6 (ix2 k j)
    refine congrArg (V c main_arg6) (funext fun a => Fin.ext ?_)
    match a with
    | ⟨0, _⟩ => show win1_2.index t (0 : Fin 2) * 32 + 1 * k.val = k.val; omega
    | ⟨1, _⟩ => show win1_2.index t (1 : Fin 2) * 64 + 1 * j.val = j.val; omega
  · intro j
    show V c main_v32 (((cfg1.win 3).blk t).view.emb (ix2 (0 : Fin 1) j)) = V c main_v32 (ix2 (0 : Fin 1) j)
    refine congrArg (V c main_v32) (funext fun a => Fin.ext ?_)
    match a with
    | ⟨0, _⟩ => show win1_3.index t (0 : Fin 2) * 1 + 1 * 0 = 0; omega
    | ⟨1, _⟩ => show win1_3.index t (1 : Fin 2) * 64 + 1 * j.val = j.val; omega
  · intro k j
    show V c main_arg8 (((cfg1.win 4).blk t).view.emb (ix2 k j)) = V c main_arg8 (ix2 k j)
    refine congrArg (V c main_arg8) (funext fun a => Fin.ext ?_)
    match a with
    | ⟨0, _⟩ => show win1_4.index t (0 : Fin 2) * 128 + 1 * k.val = k.val; omega
    | ⟨1, _⟩ => show win1_4.index t (1 : Fin 2) * 64 + 1 * j.val = j.val; omega
  · intro j
    show V c main_v33 (((cfg1.win 5).blk t).view.emb (ix2 (0 : Fin 1) j)) = V c main_v33 (ix2 (0 : Fin 1) j)
    refine congrArg (V c main_v33) (funext fun a => Fin.ext ?_)
    match a with
    | ⟨0, _⟩ => show win1_5.index t (0 : Fin 2) * 1 + 1 * 0 = 0; omega
    | ⟨1, _⟩ => show win1_5.index t (1 : Fin 2) * 64 + 1 * j.val = j.val; omega

/-- An edge-by-column index is in point `t`'s block iff each coordinate is in the block's range on its axis. -/
theorem mem_blk (t : Fin cfg1.N) (i : S1600000x64.Idx) :
    i ∈ ((cfg1.win 6).blk t).view.set ↔ ∀ a : Fin 2, win1_6.index t a * S8000x64.size a ≤ (i a).val ∧ (i a).val < win1_6.index t a * S8000x64.size a + S8000x64.size a := by
  show i ∈ ((View.whole main_v34).slice (win1_6.rect t)).set ↔ _
  rw [View.set_slice_whole, Rect.mem_set_unit]
  exact Iff.rfl

/-- The 200 blocks of 8000 edges tile the 1600000 edges: edge `r` is in the block of the point whose block row is `r / 8000`. -/
theorem cover (i : S1600000x64.Idx) :
    ∃ t : Fin cfg1.N, (cfg1.win 6).flush t = true ∧ i ∈ ((cfg1.win 6).blk t).view.set := by
  have hi0 : (i 0).val < 1600000 := (i 0).isLt
  have hi1 : (i 1).val < 64 := (i 1).isLt
  obtain ⟨t, ht⟩ := blockIdx_onto ⟨(i 0).val / 8000, by omega⟩
  have q0 : win1_6.index t (0 : Fin 2) = (i 0).val / 8000 := congrFun ht 0
  have q1 : win1_6.index t (1 : Fin 2) = 0 := congrFun ht 1
  refine ⟨t, flush1_6 t, ?_⟩
  rw [mem_blk]
  intro a
  match a with
  | ⟨0, _⟩ => show win1_6.index t (0 : Fin 2) * 8000 ≤ (i 0).val ∧ (i 0).val < win1_6.index t (0 : Fin 2) * 8000 + 8000; omega
  | ⟨1, _⟩ => show win1_6.index t (1 : Fin 2) * 64 ≤ (i 1).val ∧ (i 1).val < win1_6.index t (1 : Fin 2) * 64 + 64; omega

/-- After the 200 grid points the output array is the layer's gated edge function of the arrays the region was
    entered with. -/
theorem value (c : Dev nD) :
    (dat1 (F := Ideal) V c).arrAt 6 cfg1.N = edgeGate (V c main_arg2) (V c main_v31) (V c main_arg6) (V c main_v32) (V c main_arg8) (V c main_v33) :=
  (dat1 V c).arrAt_eq_of_cover 6 _ (fun t _ => flushed_eq V c t) cover

end Cert.KernelIdeal.Region1

end
-- ==== Proof.Region2.lean ====
import proofs.«178715_j24051816857689_1_alg».proof.Proof.Gen.KernelIdeal.Frame
import proofs.«178715_j24051816857689_1_alg».proof.Proof.Spec
import Idealize.ShloMosaic.Lib.Pipeline.Value
import Idealize.ShloMosaic.Lib.ValueLayout

/-!
# The last region: normalise, scale, shift, double, rectify

The region walks the [100000, 64] array in 50 blocks of 2000 rows. At each block the body subtracts the row
vector μ, multiplies by the row vector ι, by γ, adds β, doubles and takes the maximum with 0 — entry by entry,
every row vector being the one [1, 64] block. So the entry at row r, column j of the result depends on the entry
(r, j) of the input and on column j of the four row vectors only, and the blocks, which tile the rows, assemble
to `bnRelu` of the whole arrays.
-/

set_option maxRecDepth 16384

noncomputable section

namespace Cert.KernelIdeal.Region2

open Idealize.ShloMosaic Idealize.ShloMosaic.TcCoe Idealize.SL.Sem Idealize.ShloMosaic.ValueIdx
open Cert.KernelIdeal Cert.KernelIdeal.Gen Cert.Layer

theorem hz : (![0, 0] : Fin 2 → Nat) = fun _ => 0 := funext fun a => by fin_cases a <;> rfl

/-- The body's arithmetic at row `p` of the block, column `q`: the entry of the block, the four row vectors at `q`. -/
theorem pay_at (x0 : Vec Ideal S2000x64 .f32) (x1 x2 x3 x4 : Vec Ideal S1x64 .f32) (p : Fin 2000) (q : Fin 64) :
    k2_pay1 x0 x1 x2 x3 x4 (ix2 p q)
      = max (two * (x3 (ix2 0 q) * ((x0 (ix2 p q) - x1 (ix2 0 q)) * x2 (ix2 0 q)) + x4 (ix2 0 q))) zero := by
  unfold k2_pay1
  simp only [shapeCast_self]
  show max (two * (broadcastTo S2000x64 x3 broadcasts_S1x64_S2000x64 (ix2 p q)
      * ((x0 (ix2 p q) - broadcastTo S2000x64 x1 broadcasts_S1x64_S2000x64 (ix2 p q))
        * broadcastTo S2000x64 x2 broadcasts_S1x64_S2000x64 (ix2 p q))
      + broadcastTo S2000x64 x4 broadcasts_S1x64_S2000x64 (ix2 p q))) zero = _
  rw [broadcastTo_1b_ab_apply, broadcastTo_1b_ab_apply, broadcastTo_1b_ab_apply, broadcastTo_1b_ab_apply]

/-- The index maps over the 50 points: the input and output blocks sit at the same row block, column block 0; the
    row vectors at block (0, 0). -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (1 : Fin 2) = 0 ∧ win2_5.index t (0 : Fin 2) ≤ 49 :=
  (by decide +kernel : ∀ t : Fin grid2.N, _)

/-- Every row block is some point's. -/
theorem idx_onto : ∀ q0 : Fin 50, ∃ t : Fin cfg2.N, win2_5.index t = ![q0.val, 0] :=
  (by decide +kernel : ∀ q0 : Fin 50, ∃ t : Fin grid2.N, win2_5.index t = ![q0.val, 0])

variable (V : (c : Dev nD) → (b : Ref sig .tc) → Buf (Elt Ideal) ((c : Thread nD τ).loc b))

/-- The five arrays the region reads: the [100000, 64] input and the four [1, 64] row vectors μ, ι, γ, β. -/
abbrev aOut (c : Dev nD) : Arr 100000 64 := V c main_v38
abbrev aMu (c : Dev nD) : Arr 1 64 := V c main_v52
abbrev aInv (c : Dev nD) : Arr 1 64 := V c main_v53
abbrev aGam (c : Dev nD) : Arr 1 64 := V c main_v54
abbrev aBet (c : Dev nD) : Arr 1 64 := V c main_v55

/-- What point `t` writes back is block `t` of `bnRelu` of the arrays as the region finds them. -/
theorem flushed_eq (c : Dev nD) (t : Fin cfg2.N) :
    (dat2 (F := Ideal) V c).flushed 5 t
      = ((cfg2.win 5).blk t).view.read (Elt Ideal)
          (bnRelu (V c main_v38) (V c main_v52) (V c main_v53) (V c main_v54) (V c main_v55)) := by
  show (cfg2.win 5).cut (grid2.coords t) ((dat2 (F := Ideal) V c).after 5 t) = _
  rw [after2_5]
  unfold out2_5
  rw [View.canon_unit_zero hz]
  simp only [View.ld_unit_zero (S := S2000x64) hz, View.ld_unit_zero (S := S1x64) hz]
  obtain ⟨e0, e1, e2, e3, e4, e5, e6, e7, e8, e9, e10, e11⟩ := idx_facts t
  funext j
  obtain ⟨p, q, rfl⟩ : ∃ (p : Fin 2000) (q : Fin 64), j = ix2 p q := ⟨j 0, j 1, eq_ix2 j⟩
  refine (pay_at (iblk2 V c 0 t) (iblk2 V c 1 t) (iblk2 V c 2 t) (iblk2 V c 3 t) (iblk2 V c 4 t) p q).trans ?_
  have hR : win2_5.index t (0 : Fin 2) * 2000 + p.val < 100000 := by have := p.isLt; omega
  have hw5 : ((cfg2.win 5).blk t).view.emb (ix2 p q) = (ix2 (⟨win2_5.index t (0 : Fin 2) * 2000 + p.val, hR⟩ : Fin 100000) q : S100000x64.Idx) := by
    funext a; apply Fin.ext
    match a with
    | ⟨0, _⟩ => show win2_5.index t (0 : Fin 2) * 2000 + 1 * p.val = win2_5.index t (0 : Fin 2) * 2000 + p.val; omega
    | ⟨1, _⟩ => show win2_5.index t (1 : Fin 2) * 64 + 1 * q.val = q.val; omega
  have hw0 : ((cfg2.win 0).blk t).view.emb (ix2 p q) = (ix2 (⟨win2_5.index t (0 : Fin 2) * 2000 + p.val, hR⟩ : Fin 100000) q : S100000x64.Idx) := by
    funext a; apply Fin.ext
    match a with
    | ⟨0, _⟩ => show win2_0.index t (0 : Fin 2) * 2000 + 1 * p.val = win2_5.index t (0 : Fin 2) * 2000 + p.val; omega
    | ⟨1, _⟩ => show win2_0.index t (1 : Fin 2) * 64 + 1 * q.val = q.val; omega
  have hw1 : ((cfg2.win 1).blk t).view.emb (ix2 (0 : Fin 1) q) = (ix2 (0 : Fin 1) q : S1x64.Idx) := by
    funext a; apply Fin.ext
    match a with
    | ⟨0, _⟩ => show win2_1.index t (0 : Fin 2) * 1 + 1 * 0 = 0; omega
    | ⟨1, _⟩ => show win2_1.index t (1 : Fin 2) * 64 + 1 * q.val = q.val; omega
  have hw2 : ((cfg2.win 2).blk t).view.emb (ix2 (0 : Fin 1) q) = (ix2 (0 : Fin 1) q : S1x64.Idx) := by
    funext a; apply Fin.ext
    match a with
    | ⟨0, _⟩ => show win2_2.index t (0 : Fin 2) * 1 + 1 * 0 = 0; omega
    | ⟨1, _⟩ => show win2_2.index t (1 : Fin 2) * 64 + 1 * q.val = q.val; omega
  have hw3 : ((cfg2.win 3).blk t).view.emb (ix2 (0 : Fin 1) q) = (ix2 (0 : Fin 1) q : S1x64.Idx) := by
    funext a; apply Fin.ext
    match a with
    | ⟨0, _⟩ => show win2_3.index t (0 : Fin 2) * 1 + 1 * 0 = 0; omega
    | ⟨1, _⟩ => show win2_3.index t (1 : Fin 2) * 64 + 1 * q.val = q.val; omega
  have hw4 : ((cfg2.win 4).blk t).view.emb (ix2 (0 : Fin 1) q) = (ix2 (0 : Fin 1) q : S1x64.Idx) := by
    funext a; apply Fin.ext
    match a with
    | ⟨0, _⟩ => show win2_4.index t (0 : Fin 2) * 1 + 1 * 0 = 0; omega
    | ⟨1, _⟩ => show win2_4.index t (1 : Fin 2) * 64 + 1 * q.val = q.val; omega
  show max (two * (aGam V c (((cfg2.win 3).blk t).view.emb (ix2 (0 : Fin 1) q))
        * ((aOut V c (((cfg2.win 0).blk t).view.emb (ix2 p q)) - aMu V c (((cfg2.win 1).blk t).view.emb (ix2 (0 : Fin 1) q)))
          * aInv V c (((cfg2.win 2).blk t).view.emb (ix2 (0 : Fin 1) q)))
        + aBet V c (((cfg2.win 4).blk t).view.emb (ix2 (0 : Fin 1) q)))) zero
    = bnRelu (aOut V c) (aMu V c) (aInv V c) (aGam V c) (aBet V c) (((cfg2.win 5).blk t).view.emb (ix2 p q))
  rw [hw0, hw1, hw2, hw3, hw4, hw5, bnRelu_ix2]
  rfl

/-- An index of the array is in point `t`'s block iff each coordinate is in the block's range on its axis. -/
theorem mem_blk (t : Fin cfg2.N) (i : S100000x64.Idx) :
    i ∈ ((cfg2.win 5).blk t).view.set ↔ ∀ a : Fin 2, win2_5.index t a * S2000x64.size a ≤ (i a).val ∧ (i a).val < win2_5.index t a * S2000x64.size a + S2000x64.size a := by
  show i ∈ ((View.whole main_v56).slice (win2_5.rect t)).set ↔ _
  rw [View.set_slice_whole, Rect.mem_set_unit]
  exact Iff.rfl

/-- The 50 blocks of 2000 rows tile the 100000 rows: row `r` lies in the block of point `r / 2000`. -/
theorem cover (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 64 ≤ (i 1).val ∧ (i 1).val < win2_5.index t (1 : Fin 2) * 64 + 64; omega

/-- The region's result array, after its 50 points: `bnRelu` of the arrays as the region finds them. -/
theorem value (c : Dev nD) :
    (dat2 (F := Ideal) V c).arrAt 5 cfg2.N = bnRelu (V c main_v38) (V c main_v52) (V c main_v53) (V c main_v54) (V c main_v55) :=
  (dat2 (F := Ideal) V c).arrAt_eq_of_cover 5 _ (fun t _ => flushed_eq V c t) cover

end Cert.KernelIdeal.Region2

end
-- ==== Proof.RefStages.lean ====
import proofs.«178715_j24051816857689_1_alg».proof.Proof.Gen.ReferenceIdeal.Read
import proofs.«178715_j24051816857689_1_alg».proof.Proof.Spec
import Idealize.ShloMosaic.Lib.ValueLayout
import Idealize.ShloMosaic.Lib.IdealHost

/-!
# The reference program's three dense stages are the layer's whole-array functions

The reference program computes, over the extended reals,

* the node stage as `(agg·Wl + bl) + x·Wr`: the layer's `nodeLin` up to the order of the three summands;
* the edge gate as `1 / (1 + exp (−z)) · edgeLin`, where `z` is a row of the joined array
  `[gathered node row | edgeLin]` against `Wg`, plus `bg`: the quotient is the logistic function of `z`,
  and the joined array read at column `k` is `gateIn`;
* the normalisation as `max (2·((γ·(out − μ))·ι + β)) 0`: the layer's `bnRelu` up to the bracketing of
  the triple product.

Each stage is read entry by entry through the generated reading lemmas of the reference's run. The
biases, means and scales enter as vectors `[64]` made rows `[1,64]` and repeated over all rows; read
back, the entry at `(r, j)` is the vector's entry `j`. Only the commutative-monoid laws of `+` and `·`
on the extended reals are used: no entry need be finite.
-/

noncomputable section

namespace Cert.ReferenceIdeal.Stages

open Cert.ReferenceIdeal Cert.ReferenceIdeal.Gen Cert.ReferenceIdeal.Read Cert.Layer Idealize.ShloMosaic
  Idealize.ShloMosaic.ValueIdx

/-! ## The node stage -/

section Node

/-- Row `r` of the left operand of a `[100000,128]·[128,64]` product at the contracted position `k`. -/
theorem lidx_agg (r : Fin 100000) (j : Fin 64) (k : Fin 128) : lidx_main_v23 (ix2 r j) k = ix2 r k := by
  funext a; match a with | ⟨0, _⟩ => rfl | ⟨1, _⟩ => rfl
/-- Column `j` of its right operand at the contracted position `k`. -/
theorem ridx_agg (r : Fin 100000) (j : Fin 64) (k : Fin 128) : ridx_main_v23 (ix2 r j) k = ix2 k j := by
  funext a; match a with | ⟨0, _⟩ => rfl | ⟨1, _⟩ => rfl
/-- The same for the product of the node features with `Wr`. -/
theorem lidx_x (r : Fin 100000) (j : Fin 64) (k : Fin 128) : lidx_main_v27 (ix2 r j) k = ix2 r k := by
  funext a; match a with | ⟨0, _⟩ => rfl | ⟨1, _⟩ => rfl
theorem ridx_x (r : Fin 100000) (j : Fin 64) (k : Fin 128) : ridx_main_v27 (ix2 r j) k = ix2 k j := by
  funext a; match a with | ⟨0, _⟩ => rfl | ⟨1, _⟩ => rfl
/-- Entry `(r, j)`, sent back through the two broadcasts of the bias `bl`, is entry `j`. -/
theorem idx_bl (r : Fin 100000) (j : Fin 64) : idx_main_v24 (idx_main_v25 (ix2 r j)) = ix1 j := by
  funext a; match a with | ⟨0, _⟩ => rfl

/-- The reference's node stage `(agg·Wl + bl) + x·Wr` is `nodeLin`, which adds the bias last:
    `(a + b) + c = (a + c) + b`. -/
theorem node (x0 : (⟨S100000x128, .f32⟩ : BufTy).Contents (Elt Ideal)) (x1 : (⟨S2x1600000, .i32⟩ : BufTy).Contents (Elt Ideal))
    (x3 : (⟨S128x64, .f32⟩ : BufTy).Contents (Elt Ideal)) (x4 : (⟨S64, .f32⟩ : BufTy).Contents (Elt Ideal))
    (x5 : (⟨S128x64, .f32⟩ : BufTy).Contents (Elt Ideal))
    (h4 : S64.ShapeCasts S1x64) :
    val_main_v28 (F := Ideal) x0 x1 x3 x4 x5
      = nodeLin (val_main_v22 (F := Ideal) x0 x1) x0 x3 x5 (shapeCast S1x64 x4 h4) := by
  funext i
  obtain ⟨r, j, rfl⟩ : ∃ (r : Fin 100000) (j : Fin 64), i = ix2 r j := ⟨i 0, i 1, eq_ix2 i⟩
  rw [nodeLin_ix2]
  unfold nodeLinAt dotAt
  rw [shapeCast_a_1a_apply]
  rw [val_main_v28_apply, val_main_v26_apply, val_main_v23_apply, val_main_v25_apply, val_main_v24_apply,
    val_main_v27_apply, idx_bl]
  generalize val_main_v22 (F := Ideal) x0 x1 = agg
  simp only [lidx_agg, ridx_agg, lidx_x, ridx_x, Ideal.addf_def]
  rw [add_right_comm]

end Node

/-! ## The edge gate -/

section Gate

/-- Two `[1600000,64]` arrays joined along the columns, read at `(e, k)`, `k < 128`: the first array's column
    `k` when `k < 64`, the second's column `k − 64` otherwise. -/
theorem concat_at {α : Type} (a b : S1600000x64.Idx → α)
    (h : Shape.Concatenates [S1600000x64, S1600000x64] S1600000x128 1) (e : Fin 1600000) (k : Fin 128) :
    concatenate S1600000x128 1 [⟨S1600000x64, a⟩, ⟨S1600000x64, b⟩] h (ix2 e k)
      = if hk : k.val < 64 then a (ix2 e ⟨k.val, hk⟩) else b (ix2 e ⟨k.val - 64, by omega⟩) := by
  by_cases hk : k.val < 64
  · rw [dif_pos hk]
    exact concatenate_pair_apply_left 1 a b h (ix2 e k) rfl (ix2 e ⟨k.val, hk⟩)
      (fun c => by match c with | ⟨0, _⟩ => rfl | ⟨1, _⟩ => rfl)
  · rw [dif_neg hk]
    refine concatenate_pair_apply_right 1 a b h (ix2 e k) rfl rfl (ix2 e ⟨k.val - 64, by omega⟩) (fun c hc => ?_) ?_
    · match c with
      | ⟨0, _⟩ => rfl
      | ⟨1, _⟩ => exact absurd rfl hc
    · show (k.val - 64) + 64 = k.val
      omega

/-- Row `e` of the edge attributes at the contracted position `k`, and column `j` of `We`. -/
theorem lidx_ea (e : Fin 1600000) (j : Fin 64) (k : Fin 32) : lidx_main_v29 (ix2 e j) k = ix2 e k := by
  funext a; match a with | ⟨0, _⟩ => rfl | ⟨1, _⟩ => rfl
theorem ridx_ea (e : Fin 1600000) (j : Fin 64) (k : Fin 32) : ridx_main_v29 (ix2 e j) k = ix2 k j := by
  funext a; match a with | ⟨0, _⟩ => rfl | ⟨1, _⟩ => rfl
/-- Row `e` of the joined array at the contracted position `k`, and column `j` of `Wg`. -/
theorem lidx_gate (e : Fin 1600000) (j : Fin 64) (k : Fin 128) : lidx_main_v41 (ix2 e j) k = ix2 e k := by
  funext a; match a with | ⟨0, _⟩ => rfl | ⟨1, _⟩ => rfl
theorem ridx_gate (e : Fin 1600000) (j : Fin 64) (k : Fin 128) : ridx_main_v41 (ix2 e j) k = ix2 k j := by
  funext a; match a with | ⟨0, _⟩ => rfl | ⟨1, _⟩ => rfl
/-- Entry `(e, j)`, sent back through the two broadcasts of the bias `be`, is entry `j`; the same for `bg`. -/
theorem idx_be (e : Fin 1600000) (j : Fin 64) : idx_main_v30 (idx_main_v31 (ix2 e j)) = ix1 j := by
  funext a; match a with | ⟨0, _⟩ => rfl
theorem idx_bg (e : Fin 1600000) (j : Fin 64) : idx_main_v42 (idx_main_v43 (ix2 e j)) = ix1 j := by
  funext a; match a with | ⟨0, _⟩ => rfl

/-- The reference's linear image of the edge attributes, entry `(e, j)`: `Σₖ ea[e,k]·We[k,j] + be[j]`. -/
theorem edgeLin_at (x2 : (⟨S1600000x32, .f32⟩ : BufTy).Contents (Elt Ideal)) (x6 : (⟨S32x64, .f32⟩ : BufTy).Contents (Elt Ideal))
    (x7 : (⟨S64, .f32⟩ : BufTy).Contents (Elt Ideal))
    (h7 : S64.ShapeCasts S1x64) (e : Fin 1600000) (j : Fin 64) :
    val_main_v32 (F := Ideal) x2 x6 x7 (ix2 e j) = edgeLinAt x2 x6 (shapeCast S1x64 x7 h7) e j := by
  unfold edgeLinAt dotAt
  rw [shapeCast_a_1a_apply]
  rw [val_main_v32_apply, val_main_v29_apply, val_main_v31_apply, val_main_v30_apply, idx_be]
  simp only [lidx_ea, ridx_ea, Ideal.addf_def]

/-- The reference's joined array `[gathered node rows | edge image]`, entry `(e, k)`, is what the gate's matrix
    multiplies. -/
theorem gateIn_at (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S128x64, .f32⟩ : BufTy).Contents (Elt Ideal))
    (x6 : (⟨S32x64, .f32⟩ : BufTy).Contents (Elt Ideal)) (x7 : (⟨S64, .f32⟩ : BufTy).Contents (Elt Ideal))
    (h7 : S64.ShapeCasts S1x64) (e : Fin 1600000) (k : Fin 128) :
    val_main_v40 (F := Ideal) x0 x1 x2 x3 x4 x5 x6 x7 (ix2 e k)
      = gateInAt (val_main_v39 (F := Ideal) x0 x1 x3 x4 x5) x2 x6 (shapeCast S1x64 x7 h7) e k := by
  unfold val_main_v40 gateInAt
  generalize val_main_v39 (F := Ideal) x0 x1 x3 x4 x5 = oc
  rw [concat_at]
  by_cases hk : k.val < 64
  · rw [dif_pos hk, dif_pos hk]
  · rw [dif_neg hk, dif_neg hk, edgeLin_at x2 x6 x7 h7]

/-- The reference's gated contribution `1 / (1 + exp (−z)) · edgeLin` is `edgeGate`: the quotient is the logistic
    function of `z = Σₖ gateIn[e,k]·Wg[k,j] + bg[j]` by definition, the float `1` being the extended real `1`. -/
theorem gate (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S128x64, .f32⟩ : BufTy).Contents (Elt Ideal))
    (x6 : (⟨S32x64, .f32⟩ : BufTy).Contents (Elt Ideal)) (x7 : (⟨S64, .f32⟩ : BufTy).Contents (Elt Ideal))
    (x8 : (⟨S128x64, .f32⟩ : BufTy).Contents (Elt Ideal)) (x9 : (⟨S64, .f32⟩ : BufTy).Contents (Elt Ideal))
    (h7 h9 : S64.ShapeCasts S1x64) :
    val_main_v51 (F := Ideal) x0 x1 x2 x3 x4 x5 x6 x7 x8 x9
      = edgeGate x2 (val_main_v39 (F := Ideal) x0 x1 x3 x4 x5) x6 (shapeCast S1x64 x7 h7) x8 (shapeCast S1x64 x9 h9) := by
  funext i
  obtain ⟨e, j, rfl⟩ : ∃ (e : Fin 1600000) (j : Fin 64), i = ix2 e j := ⟨i 0, i 1, eq_ix2 i⟩
  rw [edgeGate_ix2]
  unfold edgeGateAt
  rw [shapeCast_a_1a_apply]
  rw [val_main_v51_apply, val_main_v50_apply, val_main_v49_apply, val_main_cst_7_apply, val_main_v48_apply,
    val_main_v47_apply, val_main_cst_6_apply, val_main_v46_apply, val_main_v45_apply, val_main_v44_apply,
    val_main_v41_apply, val_main_v43_apply, val_main_v42_apply, idx_bg, edgeLin_at x2 x6 x7 h7]
  simp only [lidx_gate, ridx_gate, gateIn_at x0 x1 x2 x3 x4 x5 x6 x7 h7]
  generalize val_main_v39 (F := Ideal) x0 x1 x3 x4 x5 = oc
  simp only [Ideal.mulf_def, Ideal.hostDivf_def, Ideal.ofBits_def, Ideal.ofBits_one_f32, Ideal.addf_def,
    Ideal.hostUnary_exp_def, Ideal.hostNegf_def, Ideal.negf_def]
  rfl

end Gate

/-! ## The normalisation -/

section Norm

/-- Entry `(r, j)` of a `[100000,64]` array, sent back through the row broadcast and the `[64] → [1,64]` broadcast
    of the mean, is entry `j`. -/
theorem idx_mean (r : Fin 100000) (j : Fin 64) : idx_main_v66 (idx_main_v67 (ix2 r j)) = ix1 j := by
  funext a; match a with | ⟨0, _⟩ => rfl
/-- The same for the inverse deviation. -/
theorem idx_inv (r : Fin 100000) (j : Fin 64) : idx_main_v75 (idx_main_v76 (ix2 r j)) = ix1 j := by
  funext a; match a with | ⟨0, _⟩ => rfl
/-- The same for the scale `γ`. -/
theorem idx_gamma (r : Fin 100000) (j : Fin 64) : idx_main_v69 (idx_main_v70 (ix2 r j)) = ix1 j := by
  funext a; match a with | ⟨0, _⟩ => rfl
/-- The same for the shift `β`. -/
theorem idx_beta (r : Fin 100000) (j : Fin 64) : idx_main_v78 (idx_main_v79 (ix2 r j)) = ix1 j := by
  funext a; match a with | ⟨0, _⟩ => rfl

/-- The reference's normalised, doubled and rectified array is `bnRelu` of the aggregated array, the mean, the
    inverse deviation, `γ` and `β`: `(γ·(out − μ))·ι = γ·((out − μ)·ι)`. -/
theorem norm (x0 : (⟨S100000x128, .f32⟩ : BufTy).Contents (Elt Ideal)) (x1 : (⟨S2x1600000, .i32⟩ : BufTy).Contents (Elt Ideal))
    (x2 : (⟨S1600000x32, .f32⟩ : BufTy).Contents (Elt Ideal)) (x3 : (⟨S128x64, .f32⟩ : BufTy).Contents (Elt Ideal))
    (x4 : (⟨S64, .f32⟩ : BufTy).Contents (Elt Ideal)) (x5 : (⟨S128x64, .f32⟩ : BufTy).Contents (Elt Ideal))
    (x6 : (⟨S32x64, .f32⟩ : BufTy).Contents (Elt Ideal)) (x7 : (⟨S64, .f32⟩ : BufTy).Contents (Elt Ideal))
    (x8 : (⟨S128x64, .f32⟩ : BufTy).Contents (Elt Ideal)) (x9 x10 x11 : (⟨S64, .f32⟩ : BufTy).Contents (Elt Ideal))
    (hm hi hg hb : S64.ShapeCasts S1x64) :
    val_main_v83 (F := Ideal) x0 x1 x2 x3 x4 x5 x6 x7 x8 x9 x10 x11
      = bnRelu (val_main_v55 (F := Ideal) x0 x1 x2 x3 x4 x5 x6 x7 x8 x9)
          (shapeCast S1x64 (val_main_v58 (F := Ideal) x0 x1 x2 x3 x4 x5 x6 x7 x8 x9) hm)
          (shapeCast S1x64 (val_main_v74 (F := Ideal) x0 x1 x2 x3 x4 x5 x6 x7 x8 x9) hi)
          (shapeCast S1x64 x10 hg) (shapeCast S1x64 x11 hb) := by
  funext i
  obtain ⟨r, j, rfl⟩ : ∃ (r : Fin 100000) (j : Fin 64), i = ix2 r j := ⟨i 0, i 1, eq_ix2 i⟩
  rw [bnRelu_ix2]
  unfold bnReluAt
  rw [shapeCast_a_1a_apply, shapeCast_a_1a_apply, shapeCast_a_1a_apply, shapeCast_a_1a_apply]
  rw [val_main_v83_apply, val_main_v82_apply, val_main_v81_apply, val_main_cst_14_apply, val_main_call0_v0_apply,
    val_main_call0_cst_apply, val_main_v80_apply, val_main_v77_apply, val_main_v71_apply, val_main_v70_apply,
    val_main_v69_apply, val_main_v68_apply, val_main_v67_apply, val_main_v66_apply, val_main_v76_apply,
    val_main_v75_apply, val_main_v79_apply, val_main_v78_apply, idx_mean, idx_inv, idx_gamma, idx_beta]
  generalize val_main_v55 (F := Ideal) x0 x1 x2 x3 x4 x5 x6 x7 x8 x9 = out
  generalize val_main_v58 (F := Ideal) x0 x1 x2 x3 x4 x5 x6 x7 x8 x9 = mu
  generalize val_main_v74 (F := Ideal) x0 x1 x2 x3 x4 x5 x6 x7 x8 x9 = inv
  simp only [Ideal.ofBits_def, Ideal.maximumf_def, Ideal.mulf_def, Ideal.addf_def, Ideal.subf_def]
  rw [mul_assoc]

end Norm

end Cert.ReferenceIdeal.Stages

end
-- ==== Proof.KernelChain.lean ====
import proofs.«178715_j24051816857689_1_alg».proof.Proof.Gen.KernelIdeal.Frame
import proofs.«178715_j24051816857689_1_alg».proof.Proof.Gen.ReferenceIdeal.Read
import proofs.«178715_j24051816857689_1_alg».proof.Proof.Spec
import proofs.«178715_j24051816857689_1_alg».proof.Proof.Region0
import proofs.«178715_j24051816857689_1_alg».proof.Proof.Region1
import proofs.«178715_j24051816857689_1_alg».proof.Proof.Region2
import proofs.«178715_j24051816857689_1_alg».proof.Proof.RefStages
import Idealize.ShloMosaic.Lib.StableHlo.Run

/-!
# The kernel program's result array, stage by stage

The program alternates stretches of array operations with three regions. Reading the buffers at each boundary:

* before the first region the mean-aggregated neighbours `agg` and the destination indices are computed from the
  node features and the edge list, exactly as the reference computes them;
* the first region leaves the node stage `nodeLin` of (`agg`, node features, the two weight matrices, the bias), which is
  the reference's node stage by commutativity and associativity of the sum;
* the rows of that array are gathered at the destination indices, as in the reference;
* the second region leaves the gated contribution `edgeGate`, the reference's by the logistic function's definition;
* the contributions are scatter-added onto the node stage, and the column means and inverse deviations taken, as in
  the reference;
* the third region leaves `bnRelu`, the reference's by associativity of the product.

Every buffer a later stretch reads is followed back through the stretches and regions that do not write it.
-/

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.Layer
open Cert.ReferenceIdeal.Read (val_main_v3 val_main_v22 val_main_v28 val_main_v38 val_main_v39 val_main_v51 val_main_v55 val_main_v58 val_main_v74 val_main_v83)

variable (m : (ℓ : Loc nD τ sig) → Buf (Elt Ideal) ℓ) (ρ : Dev nD → PrngReg)

/-- A buffer that no operation of a stretch writes holds after the stretch what it held before. -/
local macro "kept_host" ops:ident : tactic => `(tactic|
  exact StableHlo.after_of_forall_not_mem _ _ (List.forall_iff_forall_mem.mp (by
    simp only [$ops:ident, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide))))

/-! ## The arguments, and the buffers carried across a boundary -/

section Kept
variable (c : Dev nD)

theorem W1_arg0 : W1 m ρ c (Proc.devRef .tc main_arg0) = m ((c : Thread nD τ).loc main_arg0) := by
  show StableHlo.after hostOps0 (W0 m ρ c) (Proc.devRef .tc main_arg0) = W0 m ρ c (Proc.devRef .tc main_arg0); kept_host hostOps0
theorem W1_arg2 : W1 m ρ c (Proc.devRef .tc main_arg2) = m ((c : Thread nD τ).loc main_arg2) := by
  show StableHlo.after hostOps0 (W0 m ρ c) (Proc.devRef .tc main_arg2) = W0 m ρ c (Proc.devRef .tc main_arg2); kept_host hostOps0
theorem W1_arg3 : W1 m ρ c (Proc.devRef .tc main_arg3) = m ((c : Thread nD τ).loc main_arg3) := by
  show StableHlo.after hostOps0 (W0 m ρ c) (Proc.devRef .tc main_arg3) = W0 m ρ c (Proc.devRef .tc main_arg3); kept_host hostOps0
theorem W1_arg5 : W1 m ρ c (Proc.devRef .tc main_arg5) = m ((c : Thread nD τ).loc main_arg5) := by
  show StableHlo.after hostOps0 (W0 m ρ c) (Proc.devRef .tc main_arg5) = W0 m ρ c (Proc.devRef .tc main_arg5); kept_host hostOps0
theorem W1_arg6 : W1 m ρ c (Proc.devRef .tc main_arg6) = m ((c : Thread nD τ).loc main_arg6) := by
  show StableHlo.after hostOps0 (W0 m ρ c) (Proc.devRef .tc main_arg6) = W0 m ρ c (Proc.devRef .tc main_arg6); kept_host hostOps0
theorem W1_arg7 : W1 m ρ c (Proc.devRef .tc main_arg7) = m ((c : Thread nD τ).loc main_arg7) := by
  show StableHlo.after hostOps0 (W0 m ρ c) (Proc.devRef .tc main_arg7) = W0 m ρ c (Proc.devRef .tc main_arg7); kept_host hostOps0
theorem W1_arg8 : W1 m ρ c (Proc.devRef .tc main_arg8) = m ((c : Thread nD τ).loc main_arg8) := by
  show StableHlo.after hostOps0 (W0 m ρ c) (Proc.devRef .tc main_arg8) = W0 m ρ c (Proc.devRef .tc main_arg8); kept_host hostOps0
theorem W1_arg9 : W1 m ρ c (Proc.devRef .tc main_arg9) = m ((c : Thread nD τ).loc main_arg9) := by
  show StableHlo.after hostOps0 (W0 m ρ c) (Proc.devRef .tc main_arg9) = W0 m ρ c (Proc.devRef .tc main_arg9); kept_host hostOps0
theorem W1_arg10 : W1 m ρ c (Proc.devRef .tc main_arg10) = m ((c : Thread nD τ).loc main_arg10) := by
  show StableHlo.after hostOps0 (W0 m ρ c) (Proc.devRef .tc main_arg10) = W0 m ρ c (Proc.devRef .tc main_arg10); kept_host hostOps0
theorem W1_arg11 : W1 m ρ c (Proc.devRef .tc main_arg11) = m ((c : Thread nD τ).loc main_arg11) := by
  show StableHlo.after hostOps0 (W0 m ρ c) (Proc.devRef .tc main_arg11) = W0 m ρ c (Proc.devRef .tc main_arg11); kept_host hostOps0
theorem W2_v3 : W2 m ρ c (Proc.devRef .tc main_v3) = W1 m ρ c (Proc.devRef .tc main_v3) := W2_of_ne m ρ c main_v3 (by decide)
theorem W2_arg2 : W2 m ρ c (Proc.devRef .tc main_arg2) = W1 m ρ c (Proc.devRef .tc main_arg2) := W2_of_ne m ρ c main_arg2 (by decide)
theorem W2_arg6 : W2 m ρ c (Proc.devRef .tc main_arg6) = W1 m ρ c (Proc.devRef .tc main_arg6) := W2_of_ne m ρ c main_arg6 (by decide)
theorem W2_arg7 : W2 m ρ c (Proc.devRef .tc main_arg7) = W1 m ρ c (Proc.devRef .tc main_arg7) := W2_of_ne m ρ c main_arg7 (by decide)
theorem W2_arg8 : W2 m ρ c (Proc.devRef .tc main_arg8) = W1 m ρ c (Proc.devRef .tc main_arg8) := W2_of_ne m ρ c main_arg8 (by decide)
theorem W2_arg9 : W2 m ρ c (Proc.devRef .tc main_arg9) = W1 m ρ c (Proc.devRef .tc main_arg9) := W2_of_ne m ρ c main_arg9 (by decide)
theorem W2_arg10 : W2 m ρ c (Proc.devRef .tc main_arg10) = W1 m ρ c (Proc.devRef .tc main_arg10) := W2_of_ne m ρ c main_arg10 (by decide)
theorem W2_arg11 : W2 m ρ c (Proc.devRef .tc main_arg11) = W1 m ρ c (Proc.devRef .tc main_arg11) := W2_of_ne m ρ c main_arg11 (by decide)
theorem W3_v24 : W3 m ρ c (Proc.devRef .tc main_v24) = W2 m ρ c (Proc.devRef .tc main_v24) := by
  show StableHlo.after hostOps1 (W2 m ρ c) (Proc.devRef .tc main_v24) = W2 m ρ c (Proc.devRef .tc main_v24); kept_host hostOps1
theorem W3_v3 : W3 m ρ c (Proc.devRef .tc main_v3) = W2 m ρ c (Proc.devRef .tc main_v3) := by
  show StableHlo.after hostOps1 (W2 m ρ c) (Proc.devRef .tc main_v3) = W2 m ρ c (Proc.devRef .tc main_v3); kept_host hostOps1
theorem W3_arg2 : W3 m ρ c (Proc.devRef .tc main_arg2) = W2 m ρ c (Proc.devRef .tc main_arg2) := by
  show StableHlo.after hostOps1 (W2 m ρ c) (Proc.devRef .tc main_arg2) = W2 m ρ c (Proc.devRef .tc main_arg2); kept_host hostOps1
theorem W3_arg6 : W3 m ρ c (Proc.devRef .tc main_arg6) = W2 m ρ c (Proc.devRef .tc main_arg6) := by
  show StableHlo.after hostOps1 (W2 m ρ c) (Proc.devRef .tc main_arg6) = W2 m ρ c (Proc.devRef .tc main_arg6); kept_host hostOps1
theorem W3_arg8 : W3 m ρ c (Proc.devRef .tc main_arg8) = W2 m ρ c (Proc.devRef .tc main_arg8) := by
  show StableHlo.after hostOps1 (W2 m ρ c) (Proc.devRef .tc main_arg8) = W2 m ρ c (Proc.devRef .tc main_arg8); kept_host hostOps1
theorem W3_arg10 : W3 m ρ c (Proc.devRef .tc main_arg10) = W2 m ρ c (Proc.devRef .tc main_arg10) := by
  show StableHlo.after hostOps1 (W2 m ρ c) (Proc.devRef .tc main_arg10) = W2 m ρ c (Proc.devRef .tc main_arg10); kept_host hostOps1
theorem W3_arg11 : W3 m ρ c (Proc.devRef .tc main_arg11) = W2 m ρ c (Proc.devRef .tc main_arg11) := by
  show StableHlo.after hostOps1 (W2 m ρ c) (Proc.devRef .tc main_arg11) = W2 m ρ c (Proc.devRef .tc main_arg11); kept_host hostOps1
theorem W4_v24 : W4 m ρ c (Proc.devRef .tc main_v24) = W3 m ρ c (Proc.devRef .tc main_v24) := W4_of_ne m ρ c main_v24 (by decide)
theorem W4_v3 : W4 m ρ c (Proc.devRef .tc main_v3) = W3 m ρ c (Proc.devRef .tc main_v3) := W4_of_ne m ρ c main_v3 (by decide)
theorem W4_arg10 : W4 m ρ c (Proc.devRef .tc main_arg10) = W3 m ρ c (Proc.devRef .tc main_arg10) := W4_of_ne m ρ c main_arg10 (by decide)
theorem W4_arg11 : W4 m ρ c (Proc.devRef .tc main_arg11) = W3 m ρ c (Proc.devRef .tc main_arg11) := W4_of_ne m ρ c main_arg11 (by decide)

end Kept

/-! ## Equal arguments give equal stages -/

theorem nodeLin_congr {a a' x x' : Arr 100000 128} {wl wl' wr wr' : Arr 128 64} {bl bl' : Arr 1 64}
    (h1 : a = a') (h2 : x = x') (h3 : wl = wl') (h4 : wr = wr') (h5 : bl = bl') :
    nodeLin a x wl wr bl = nodeLin a' x' wl' wr' bl' := by rw [h1, h2, h3, h4, h5]

theorem edgeGate_congr {ea ea' : Arr 1600000 32} {oc oc' : Arr 1600000 64} {we we' : Arr 32 64} {be be' bg bg' : Arr 1 64}
    {wg wg' : Arr 128 64} (h1 : ea = ea') (h2 : oc = oc') (h3 : we = we') (h4 : be = be') (h5 : wg = wg') (h6 : bg = bg') :
    edgeGate ea oc we be wg bg = edgeGate ea' oc' we' be' wg' bg' := by rw [h1, h2, h3, h4, h5, h6]

theorem bnRelu_congr {o o' : Arr 100000 64} {mu mu' iv iv' g g' b b' : Arr 1 64}
    (h1 : o = o') (h2 : mu = mu') (h3 : iv = iv') (h4 : g = g') (h5 : b = b') :
    bnRelu o mu iv g b = bnRelu o' mu' iv' g' b' := by rw [h1, h2, h3, h4, h5]

/-! ## Before the first region: the destination indices and the mean-aggregated neighbours -/

section Stages
variable (c : Dev nD)

theorem W1_v3 : W1 m ρ c (Proc.devRef .tc main_v3) = val_main_v3 (F := Ideal) (m ((c : Thread nD τ).loc main_arg1)) := by
  show StableHlo.after hostOps0 (W0 m ρ c) (Proc.devRef .tc main_v3) = _
  after_results_simp
  rfl

theorem W1_v22 : W1 m ρ c (Proc.devRef .tc main_v22) = val_main_v22 (F := Ideal) (m ((c : Thread nD τ).loc main_arg0)) (m ((c : Thread nD τ).loc main_arg1)) := by
  show StableHlo.after hostOps0 (W0 m ρ c) (Proc.devRef .tc main_v22) = _
  after_results_simp
  rfl

theorem W1_v23 : W1 m ρ c (Proc.devRef .tc main_v23) = shapeCast S1x64 (m ((c : Thread nD τ).loc main_arg4)) shapeCasts_S64_S1x64 := by
  show StableHlo.after hostOps0 (W0 m ρ c) (Proc.devRef .tc main_v23) = _
  after_results_simp
  rfl

/-! ## The first region: the node stage -/

theorem W2_v24 : W2 m ρ c (Proc.devRef .tc main_v24) = val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W2_arr m ρ c 5).trans <| (Region0.value (V1 m ρ) c).trans <|
    (nodeLin_congr (W1_v22 m ρ c) (W1_arg0 m ρ c) (W1_arg3 m ρ c) (W1_arg5 m ρ c) (W1_v23 m ρ c)).trans
      (Cert.ReferenceIdeal.Stages.node _ _ _ _ _ _).symm

theorem W2_v3' : W2 m ρ c (Proc.devRef .tc main_v3) = val_main_v3 (F := Ideal) (m ((c : Thread nD τ).loc main_arg1)) := (W2_v3 m ρ c).trans (W1_v3 m ρ c)

/-! ## Between the first two regions: the node stage's rows gathered at the destination indices -/

theorem W3_v31 : W3 m ρ c (Proc.devRef .tc main_v31) = val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  show StableHlo.after hostOps1 (W2 m ρ c) (Proc.devRef .tc main_v31) = _
  after_results_simp
  simp only [W2_v24 m ρ c, W2_v3' m ρ c]
  rfl

theorem W3_v32 : W3 m ρ c (Proc.devRef .tc main_v32) = shapeCast S1x64 (m ((c : Thread nD τ).loc main_arg7)) shapeCasts_S64_S1x64 := by
  show StableHlo.after hostOps1 (W2 m ρ c) (Proc.devRef .tc main_v32) = _
  after_results_simp
  simp only [W2_arg7 m ρ c, W1_arg7 m ρ c]
  rfl

theorem W3_v33 : W3 m ρ c (Proc.devRef .tc main_v33) = shapeCast S1x64 (m ((c : Thread nD τ).loc main_arg9)) shapeCasts_S64_S1x64 := by
  show StableHlo.after hostOps1 (W2 m ρ c) (Proc.devRef .tc main_v33) = _
  after_results_simp
  simp only [W2_arg9 m ρ c, W1_arg9 m ρ c]
  rfl

theorem W3_arg2' : W3 m ρ c (Proc.devRef .tc main_arg2) = m ((c : Thread nD τ).loc main_arg2) := (W3_arg2 m ρ c).trans ((W2_arg2 m ρ c).trans (W1_arg2 m ρ c))
theorem W3_arg6' : W3 m ρ c (Proc.devRef .tc main_arg6) = m ((c : Thread nD τ).loc main_arg6) := (W3_arg6 m ρ c).trans ((W2_arg6 m ρ c).trans (W1_arg6 m ρ c))
theorem W3_arg8' : W3 m ρ c (Proc.devRef .tc main_arg8) = m ((c : Thread nD τ).loc main_arg8) := (W3_arg8 m ρ c).trans ((W2_arg8 m ρ c).trans (W1_arg8 m ρ c))

/-! ## The second region: the gated contributions -/

theorem W4_v34 : W4 m ρ c (Proc.devRef .tc main_v34) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  (W4_arr m ρ c 6).trans <| (Region1.value (V3 m ρ) c).trans <|
    (edgeGate_congr (W3_arg2' m ρ c) (W3_v31 m ρ c) (W3_arg6' m ρ c) (W3_v32 m ρ c) (W3_arg8' m ρ c) (W3_v33 m ρ c)).trans
      (Cert.ReferenceIdeal.Stages.gate _ _ _ _ _ _ _ _ _ _ _ _).symm

theorem W4_v24' : W4 m ρ c (Proc.devRef .tc main_v24) = val_main_v28 (F := Ideal) (m ((c : Thread nD τ).loc main_arg0)) (m ((c : Thread nD τ).loc main_arg1)) (m ((c : Thread nD τ).loc main_arg3)) (m ((c : Thread nD τ).loc main_arg4)) (m ((c : Thread nD τ).loc main_arg5)) :=
  (W4_v24 m ρ c).trans ((W3_v24 m ρ c).trans (W2_v24 m ρ c))
theorem W4_v3' : W4 m ρ c (Proc.devRef .tc main_v3) = val_main_v3 (F := Ideal) (m ((c : Thread nD τ).loc main_arg1)) :=
  (W4_v3 m ρ c).trans ((W3_v3 m ρ c).trans (W2_v3' m ρ c))
theorem W4_arg10' : W4 m ρ c (Proc.devRef .tc main_arg10) = m ((c : Thread nD τ).loc main_arg10) :=
  (W4_arg10 m ρ c).trans ((W3_arg10 m ρ c).trans ((W2_arg10 m ρ c).trans (W1_arg10 m ρ c)))
theorem W4_arg11' : W4 m ρ c (Proc.devRef .tc main_arg11) = m ((c : Thread nD τ).loc main_arg11) :=
  (W4_arg11 m ρ c).trans ((W3_arg11 m ρ c).trans ((W2_arg11 m ρ c).trans (W1_arg11 m ρ c)))

/-! ## Before the last region: the contributions scatter-added, the column means and inverse deviations -/

theorem W5_v38 : W5 m ρ c (Proc.devRef .tc main_v38) = val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) := by
  show StableHlo.after hostOps2 (W4 m ρ c) (Proc.devRef .tc main_v38) = _
  after_results_simp
  simp only [W4_v24' m ρ c, W4_v3' m ρ c, W4_v34 m ρ c]
  rfl

theorem W5_v52 : W5 m ρ c (Proc.devRef .tc main_v52) = shapeCast S1x64 (val_main_v58 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S64_S1x64 := by
  show StableHlo.after hostOps2 (W4 m ρ c) (Proc.devRef .tc main_v52) = _
  after_results_simp
  simp only [W4_v24' m ρ c, W4_v3' m ρ c, W4_v34 m ρ c]
  rfl

theorem W5_v53 : W5 m ρ c (Proc.devRef .tc main_v53) = shapeCast S1x64 (val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) shapeCasts_S64_S1x64 := by
  show StableHlo.after hostOps2 (W4 m ρ c) (Proc.devRef .tc main_v53) = _
  after_results_simp
  simp only [W4_v24' m ρ c, W4_v3' m ρ c, W4_v34 m ρ c]
  rfl

theorem W5_v54 : W5 m ρ c (Proc.devRef .tc main_v54) = shapeCast S1x64 (m ((c : Thread nD τ).loc main_arg10)) shapeCasts_S64_S1x64 := by
  show StableHlo.after hostOps2 (W4 m ρ c) (Proc.devRef .tc main_v54) = _
  after_results_simp
  simp only [W4_arg10' m ρ c]
  rfl

theorem W5_v55 : W5 m ρ c (Proc.devRef .tc main_v55) = shapeCast S1x64 (m ((c : Thread nD τ).loc main_arg11)) shapeCasts_S64_S1x64 := by
  show StableHlo.after hostOps2 (W4 m ρ c) (Proc.devRef .tc main_v55) = _
  after_results_simp
  simp only [W4_arg11' m ρ c]
  rfl

/-! ## The last region: the program's result -/

/-- The result array at the program's end is the reference's last stage of the launch arguments. -/
theorem result : W6 m ρ c (Proc.devRef .tc main_v56) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W6_arr m ρ c 5).trans <| (Region2.value (V5 m ρ) c).trans <|
    (bnRelu_congr (W5_v38 m ρ c) (W5_v52 m ρ c) (W5_v53 m ρ c) (W5_v54 m ρ c) (W5_v55 m ρ c)).trans
      (Cert.ReferenceIdeal.Stages.norm _ _ _ _ _ _ _ _ _ _ _ _ _ _ _ _).symm

end Stages

end Cert.KernelIdeal.Chain

end
-- ==== Proof.lean ====
/-
  A graph layer over 100000 nodes and 1600000 edges, computed two ways, gives one result on the extended reals.

  Both programs gather the neighbours' features along the edges, scatter-add them at the destination nodes and
  divide by the degree (at least 1); apply the node stage (agg·Wl + x·Wr + bl, the three summands in either order);
  gather that array's rows at the destinations; form the gated contribution σ([row | ea·We + be]·Wg + bg)·(ea·We + be),
  σ the logistic function, which the reference spells 1 / (1 + exp (−z)); scatter-add the contributions onto the node
  stage; take column means and inverse deviations; and finish with max (2·(γ·(out − μ)·ι + β)) 0, the triple product
  bracketed either way. The kernel program does the three dense stages block by block (50 blocks of 2000 rows, 200
  blocks of 8000 edges, 50 blocks of 2000 rows), rounding operands to a narrower format on the way, which is the
  identity here; the gathers, scatters and column statistics are the same operations in both.

  So each dense stage of the kernel program, assembled from its blocks, is a whole-array function (Proof/Spec.lean;
  Proof/Region0.lean, Region1.lean, Region2.lean), the reference's stage is the same function by commutativity and
  associativity of + and · and the definition of σ (Proof/RefStages.lean), and the shared operations carry equal
  arrays to equal arrays (Proof/KernelChain.lean). No law used fails at an infinity, so the inputs' finiteness is not
  called on. The two frames of the kernel program are its generated ones; the reference's frame is its generated run
  with the result dropped; the idealization rewrote nothing.
-/
import proofs.«178715_j24051816857689_1_alg».proof.Defs
import proofs.«178715_j24051816857689_1_alg».proof.Proof.Gen.Kernel
import proofs.«178715_j24051816857689_1_alg».proof.Proof.Gen.Kernel.Frame
import proofs.«178715_j24051816857689_1_alg».proof.Proof.Gen.KernelIdeal
import proofs.«178715_j24051816857689_1_alg».proof.Proof.Gen.KernelIdeal.Frame
import proofs.«178715_j24051816857689_1_alg».proof.Proof.Gen.ReferenceIdeal
import proofs.«178715_j24051816857689_1_alg».proof.Proof.Gen.ReferenceIdeal.Run
import proofs.«178715_j24051816857689_1_alg».proof.Proof.Gen.ReferenceIdeal.Read
import proofs.«178715_j24051816857689_1_alg».proof.Proof.Gen.Pre_finite_inputs
import proofs.«178715_j24051816857689_1_alg».proof.Proof.RunNamed
import proofs.«178715_j24051816857689_1_alg».proof.Proof.KernelChain
import Idealize.ShloMosaic.Adequacy
import Idealize.ShloMosaic.Init

noncomputable section

namespace Cert.Proof

open Idealize.ShloMosaic Idealize.SL.Sem

/-- Both idealized programs, run from memories that agree on the arguments, end with the same result array: the
    reference's last stage of the arguments. The kernel program's run names its result as the last region's exit
    contents, which the chain of stages identifies with that stage; the reference's run states it directly. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Chain.result m ρ c), (h c).2⟩)
      (Cert.KernelIdeal.Gen.run_named m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.ReferenceIdeal.Read.val_main_v83_eq, h0, h1, h2, h3, h4, h5, h6, h7, h8, h9, h10, h11]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
